-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S1 : Shape := ⟨1, ![1]⟩
abbrev S128x256 : Shape := ⟨2, ![128, 256]⟩
abbrev S256 : Shape := ⟨1, ![256]⟩
abbrev S256x256 : Shape := ⟨2, ![256, 256]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : IVec S1x800000 32 := (extractStridedSlice S1x800000 ![0, 0] · slices_S2x800000_S1x800000_0_0) main_arg1
  let main_v40 : IVec S800000 32 := shapeCast S800000 main_v39 shapeCasts_S1x800000_S800000
  let main_c_14 : IVec S_ 32 := constantI S_ 32 4294917296#32
  let main_v41 : IVec S800000 32 := broadcastInDim S800000 ![] bcast_S_S800000 main_c_14
  let main_v42 : IVec S800000 1 := cmpi .sge main_v40 main_v41
  let main_v43 : IVec S1x800000 32 := (extractStridedSlice S1x800000 ![0, 0] · slices_S2x800000_S1x800000_0_0) main_arg1
  let main_v44 : IVec S800000 32 := shapeCast S800000 main_v43 shapeCasts_S1x800000_S800000
  let main_c_15 : IVec S_ 32 := constantI S_ 32 50000#32
  let main_v45 : IVec S800000 32 := broadcastInDim S800000 ![] bcast_S_S800000 main_c_15
  let main_v46 : IVec S800000 1 := cmpi .slt main_v44 main_v45
  let main_v47 : IVec S800000 1 := andi main_v42 main_v46
  let main_c_16 : IVec S_ 1 := constantI S_ 1 1#1
  let main_v48 : IVec S_ 1 := (fun x v => Host.reduce IntOp.andi x v reducesTo_S800000_S_d0 h_S_) main_v47 main_c_16
  let main_v49 : IVec S_ 1 := andi main_v38 main_v48
  main_v49

def fn_part1 {F : FTy → Type} [FloatOps F] (main_arg1 : IVec S2x800000 32) (main_arg6 : FVec F S256 .f32) (main_arg7 : FVec F S256x256 .f32) (main_arg8 : FVec F S256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg9 main_v33

def fn {F : FTy → Type} [FloatOps F] (main_arg0 : FVec F S50000x128 .f32) (main_arg1 : IVec S2x800000 32) (main_arg2 : IVec S50000 32) (main_arg3 : FVec F S1 .f32) (main_arg4 : FVec F S128x256 .f32) (main_arg5 : FVec F S256 .f32) (main_arg6 : FVec F S256 .f32) (main_arg7 : FVec F S256x256 .f32) (main_arg8 : FVec F S256 .f32) (main_arg9 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1 .f32 := Host.absf main_arg3
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg6 main_arg7 main_arg8 main_arg9 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S1 : Shape := ⟨1, ![1]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩

abbrev nBuf : Space → Nat
  | .hbm => 74
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S1, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S1, .i32⟩
  | .hbm, ⟨23, _⟩ => ⟨S_, .i32⟩
  | .hbm, ⟨24, _⟩ => ⟨S800000x1, .i32⟩
  | .hbm, ⟨25, _⟩ => ⟨S800000x1, .i1⟩
  | .hbm, ⟨26, _⟩ => ⟨S1x1, .i32⟩
  | .hbm, ⟨27, _⟩ => ⟨S800000x1, .i32⟩
  | .hbm, ⟨28, _⟩ => ⟨S800000x1, .i1⟩
  | .hbm, ⟨29, _⟩ => ⟨S800000x1, .i1⟩
  | .hbm, ⟨30, _⟩ => ⟨S_, .i1⟩
  | .hbm, ⟨31, _⟩ => ⟨S800000, .i1⟩
  | .hbm, ⟨32, _⟩ => ⟨S800000x128, .f32⟩
  | .hbm, ⟨33, _⟩ => ⟨S800000x128, .i1⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S50000x256, .f32⟩
  | .hbm, ⟨52, _⟩ => ⟨S1x256, .f32⟩
  | .hbm, ⟨53, _⟩ => ⟨S1x256, .f32⟩
  | .hbm, ⟨54, _⟩ => ⟨S_, .f32⟩
  | .hbm, ⟨55, _⟩ => ⟨S1x256, .f32⟩
  | .hbm, ⟨56, _⟩ => ⟨S1x256, .f32⟩
  | .hbm, ⟨57, _⟩ => ⟨S_, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S50000x256, .f32⟩
  | .hbm, ⟨63, _⟩ => ⟨S1x256, .f32⟩
  | .hbm, ⟨64, _⟩ => ⟨S1x256, .f32⟩
  | .hbm, ⟨65, _⟩ => ⟨S_, .f32⟩
  | .hbm, ⟨66, _⟩ => ⟨S1x256, .f32⟩
  | .hbm, ⟨67, _⟩ => ⟨S1x256, .f32⟩
  | .hbm, ⟨68, _⟩ => ⟨S_, .f32⟩
  | .hbm, ⟨69, _⟩ => ⟨S1x256, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S1x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S256x256, .f32⟩
  | .local _ .vmem, ⟨14, _⟩ => ⟨S5000x256, .f32⟩
  | .local _ .vmem, ⟨15, _⟩ => ⟨S5000x256, .f32⟩
  | .local _ .vmem, ⟨16, _⟩ => ⟨S1x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S5000x256, .f32⟩
  | .local _ .vmem, ⟨25, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst_0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17_0 : Ref sig .tc := ⟨.hbm, 51, rfl⟩
abbrev main_v17_1 : Ref sig .tc := ⟨.hbm, 52, rfl⟩
abbrev main_v17_2 : Ref sig .tc := ⟨.hbm, 53, rfl⟩
abbrev main_cst_1 : Ref sig .tc := ⟨.hbm, 54, rfl⟩
abbrev main_v18 : Ref sig .tc := ⟨.hbm, 55, rfl⟩
abbrev main_v19 : Ref sig .tc := ⟨.hbm, 56, rfl⟩
abbrev main_cst_2 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24_0 : Ref sig .tc := ⟨.hbm, 62, rfl⟩
abbrev main_v24_1 : Ref sig .tc := ⟨.hbm, 63, rfl⟩
abbrev main_v24_2 : Ref sig .tc := ⟨.hbm, 64, rfl⟩
abbrev main_cst_3 : Ref sig .tc := ⟨.hbm, 65, rfl⟩
abbrev main_v25 : Ref sig .tc := ⟨.hbm, 66, rfl⟩
abbrev main_v26 : Ref sig .tc := ⟨.hbm, 67, rfl⟩
abbrev main_cst_4 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg8_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem8_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S1_S_ : S1.ShapeCasts S_
  shapeCasts_S256_S1x256 : S256.ShapeCasts S1x256
  inb_S1x256_S1x256_0_0 : ∀ a, (![0, 0] : Fin 2 → Nat) a + S1x256.size a ≤ S1x256.size a
  h_S1x256 : 0 < S1x256.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  shapeCasts_S1x256_S1x256 : S1x256.ShapeCasts S1x256
  reduces_S5000x256_S256 : S5000x256.Reduces [0] S256
  bcast_S_S1x256 : S_.BroadcastsInDim S1x256 (![] : Fin 0 → Fin S1x256.rank)
  shapeCasts_S5000x256_S5000x256 : S5000x256.ShapeCasts S5000x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x256.size a ≤ S50000x256.size a
  hwx1_6 : ∀ i : grid1.Coords, EltTy.bits .f32 = 32 ∨ (Rect.block (s := S50000x256) S5000x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S50000x256.size a
  hwx2_5 : ∀ i : grid2.Coords, EltTy.bits .f32 = 32 ∨ (Rect.block (s := S50000x256) S5000x256.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17_0) S5000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_1) S1x256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17_2) S1x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24_0) S5000x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v24_1) S1x256.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24_2) S1x256.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v24_0) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S5000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S1 : Shape := ⟨1, ![1]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S1, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x256, .f32⟩
  | .hbm, ⟨34, _⟩ => ⟨S_, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S1x256, .f32⟩
  | .hbm, ⟨56, _⟩ => ⟨S50000x256, .f32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S256, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S_, .f32⟩
  | .hbm, ⟨78, _⟩ => ⟨S256, .f32⟩
  | .hbm, ⟨79, _⟩ => ⟨S_, .f32⟩
  | .hbm, ⟨80, _⟩ => ⟨S256, .f32⟩
  | .hbm, ⟨81, _⟩ => ⟨S256, .f32⟩
  | .hbm, ⟨82, _⟩ => ⟨S1x256, .f32⟩
  | .hbm, ⟨83, _⟩ => ⟨S50000x256, .f32⟩
  | .hbm, ⟨84, _⟩ => ⟨S50000x256, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S256, .f32⟩
  | .hbm, ⟨89, _⟩ => ⟨S1x256, .f32⟩
  | .hbm, ⟨90, _⟩ => ⟨S50000x256, .f32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S50000x256, .f32⟩
  | .hbm, ⟨95, _⟩ => ⟨S1x256, .f32⟩
  | .hbm, ⟨96, _⟩ => ⟨S50000x256, .f32⟩
  | .hbm, ⟨97, _⟩ => ⟨S50000x256, .f32⟩
  | .hbm, ⟨98, _⟩ => ⟨S_, .f32⟩
  | .hbm, ⟨99, _⟩ => ⟨S50000x256, .f32⟩
  | .hbm, ⟨100, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_v72 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S1_S_ : S1.ShapeCasts S_
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The layer's mathematics, stated once over plain matrices of extended reals.

  A graph-isomorphism layer's dense part: from the aggregated node features `h0` (50000 rows),
  `h1 = h0 · W1`, a batch normalisation of `h1` over the rows followed by `max · 0`, `h2 = a1 · W2`, and a
  second batch normalisation followed by `max · 0`. A batch normalisation of a column uses the column's mean
  `μ = (∑ h) / N` and a variance. The two programs compute the variance differently: one as
  `(∑ h²) / N − μ²` from a single pass of running sums, the other as `(∑ (h − μ)²) / N`.
  The layer is stated with the variance as a parameter, so that the two programs are the same term at two
  variance functions; the identity between them (for real entries and `N` the number of rows) is in
  Proof/Algebra.lean.

  Float literals are kept as the words the programs spell: the same word on both sides is never evaluated,
  except where the algebra needs its value (the row count, the sign of the epsilon).
-/
import Idealize.ShloMosaic.PureOps.Ideal
import Idealize.ShloMosaic.Lib.ValueIdx

noncomputable section

open scoped BigOperators

namespace Cert.Gin

open Idealize.ShloMosaic Idealize.ShloMosaic.ValueIdx

/-- A matrix of extended reals by row and column. -/
abbrev Mat (m n : Nat) : Type := Fin m → Fin n → EReal
/-- A row of extended reals. -/
abbrev Row (n : Nat) : Type := Fin n → EReal

/-- The word `50000.0`: the divisor of both statistics. -/
abbrev wN : EReal := Ideal.ofBits .f32 0x47435000#32
/-- The word `9.99999974E-6`: the epsilon under the reciprocal square root. -/
abbrev wEps : EReal := Ideal.ofBits .f32 0x3727C5AC#32
/-- The word `0.0`: the floor of the rectifier. -/
abbrev wZero : EReal := Ideal.ofBits .f32 0x00000000#32

/-- A rank-2 array read by row and column. -/
def toMat {m n : Nat} (v : (⟨2, ![m, n]⟩ : Shape).Idx → EReal) : Mat m n := fun i j => v (ix2 i j)
/-- A `[1, n]` array read by column. -/
def toRow {n : Nat} (v : (⟨2, ![1, n]⟩ : Shape).Idx → EReal) : Row n := fun j => v (ix2 0 j)
/-- A rank-1 array read by position. -/
def toVec {n : Nat} (v : (⟨1, ![n]⟩ : Shape).Idx → EReal) : Row n := fun j => v (ix1 j)

theorem toMat_apply {m n : Nat} (v : (⟨2, ![m, n]⟩ : Shape).Idx → EReal) (i : Fin m) (j : Fin n) :
    toMat v i j = v (ix2 i j) := rfl
theorem toRow_apply {n : Nat} (v : (⟨2, ![1, n]⟩ : Shape).Idx → EReal) (j : Fin n) : toRow v j = v (ix2 0 j) := rfl
theorem toVec_apply {n : Nat} (v : (⟨1, ![n]⟩ : Shape).Idx → EReal) (j : Fin n) : toVec v j = v (ix1 j) := rfl

/-- An extended real that is a real number. -/
def IsReal (v : EReal) : Prop := ∃ r : ℝ, v = (r : EReal)

/-- Every source node id (row 0 of the edge array, read signed) is a valid row index of the 50000-row feature
    table in the array-indexing sense: from -50000 (counting from the end) up to 49999. -/
def SrcInRange (ei : (⟨2, ![2, 800000]⟩ : Shape).Idx → BitVec 32) : Prop :=
  ∀ e : Fin 800000, -50000 ≤ (ei (ix2 0 e)).toInt ∧ (ei (ix2 0 e)).toInt < 50000

variable {m k n : Nat}

/-- The matrix product, entry by entry the sum over the contracted index. -/
def matmul (a : Mat m k) (b : Mat k n) : Mat m n := fun i j => ∑ l, a i l * b l j
/-- A column's sum over all rows. -/
def colSum (h : Mat m n) : Row n := fun j => ∑ i, h i j
/-- A column's sum of squares over all rows. -/
def colSumSq (h : Mat m n) : Row n := fun j => ∑ i, h i j * h i j
/-- A column's mean: its sum over the row-count word. -/
def mean (h : Mat m n) : Row n := fun j => Ideal.div (colSum h j) wN
/-- The one-pass variance: mean of squares minus squared mean. -/
def varK (h : Mat m n) : Row n := fun j => Ideal.div (colSumSq h j) wN - mean h j * mean h j
/-- The two-pass variance: mean of squared deviations from the mean. -/
def varR (h : Mat m n) : Row n := fun j => Ideal.div (∑ i, (h i j - mean h j) * (h i j - mean h j)) wN

/-- Normalise each column by a mean and a variance, scale, shift, and rectify. -/
def bnRelu (mu var g b : Row n) (h : Mat m n) : Mat m n := fun i j =>
  max (((h i j - mu j) * Ideal.rsqrt (var j + wEps)) * g j + b j) wZero

theorem matmul_apply (a : Mat m k) (b : Mat k n) (i : Fin m) (j : Fin n) : matmul a b i j = ∑ l, a i l * b l j := rfl
theorem colSum_apply (h : Mat m n) (j : Fin n) : colSum h j = ∑ i, h i j := rfl
theorem colSumSq_apply (h : Mat m n) (j : Fin n) : colSumSq h j = ∑ i, h i j * h i j := rfl
theorem bnRelu_apply (mu var g b : Row n) (h : Mat m n) (i : Fin m) (j : Fin n) :
    bnRelu mu var g b h i j = max (((h i j - mu j) * Ideal.rsqrt (var j + wEps)) * g j + b j) wZero := rfl

/-- The dense part of the layer at a variance function `var`. -/
def layer (var : Mat 50000 256 → Row 256) (h0 : Mat 50000 128) (W1 : Mat 128 256) (g1 b1 : Row 256)
    (W2 : Mat 256 256) (g2 b2 : Row 256) : Mat 50000 256 :=
  let h1 := matmul h0 W1
  let a1 := bnRelu (mean h1) (var h1) g1 b1 h1
  let h2 := matmul a1 W2
  bnRelu (mean h2) (var h2) g2 b2 h2

/-- A sum over 50000 rows is the sum over ten blocks of 5000 consecutive rows. -/
theorem sum_rows_blocks (f : Fin 50000 → EReal) :
    ∑ i, f i = ∑ t : Fin 10, ∑ r : Fin 5000, f ⟨5000 * t.val + r.val, by have := t.isLt; have := r.isLt; omega⟩ := by
  rw [← Finset.sum_product', Finset.univ_product_univ]
  symm
  refine Fintype.sum_equiv (finProdFinEquiv (m := 10) (n := 5000)) _ (fun i : Fin (10 * 5000) => f i) fun p => ?_
  refine congrArg f (Fin.ext ?_)
  show 5000 * p.1.val + p.2.val = (finProdFinEquiv p).val
  rw [finProdFinEquiv_apply_val]; omega

end Cert.Gin

end
-- ==== Proof.Region0Pieces.lean ====
/-
  What one grid point of the first region leaves in its three output blocks, as the body's arithmetic applied to
  the point's input blocks: the product block is the block product; each running statistic row is its update of
  what the row held before, which at the first point is the zero row the point itself has just stored.
-/
import proofs.«413239_j75531294867868_1_alg».proof.Proof.Gen.KernelIdeal.Frame
import Idealize.ShloMosaic.Lib.Pipeline.Value

set_option maxRecDepth 16384

noncomputable section

namespace Cert.KernelIdeal.R0

open Idealize.ShloMosaic Idealize.ShloMosaic.TcCoe Idealize.SL.Sem
open Cert.KernelIdeal Cert.KernelIdeal.Gen

variable {F : FTy → Type} [FloatOps F]

/-- The zero offsets of a whole-block access, as a constant function. -/
theorem hz2 : (![0, 0] : Fin 2 → Nat) = fun _ => 0 := funext fun a => by fin_cases a <;> rfl

/-- At the first point the product block is the payload of the one covering store. -/
theorem out_A_2 (c : Dev nD) (i : grid0.Coords) (a1 : Memref sig .tc .vmem S5000x128 .f32) (h1 : a1.IsWhole)
    (a2 : Memref sig .tc .vmem S128x256 .f32) (h2 : a2.IsWhole) (a3 : Memref sig .tc .vmem S5000x256 .f32) (h3 : a3.IsWhole)
    (a4 : Memref sig .tc .vmem S1x256 .f32) (h4 : a4.IsWhole) (a5 : Memref sig .tc .vmem S1x256 .f32) (h5 : a5.IsWhole)
    (hc : cond0_0 i) (x0 : Vec F S5000x128 .f32) (x1 : Vec F S128x256 .f32) :
    out0_A_2 c i a1 h1 a2 h2 a3 h3 a4 h4 a5 h5 hc x0 x1 = k0_pay3 x0 x1 := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero hz2]
  simp only [View.readAt_eq_ld, h1.read_unread, h2.read_unread, View.ld_unit_zero (S := S5000x128) hz2,
    View.ld_unit_zero (S := S128x256) hz2]

/-- At a later point likewise. -/
theorem out_B_2 (c : Dev nD) (i : grid0.Coords) (a1 : Memref sig .tc .vmem S5000x128 .f32) (h1 : a1.IsWhole)
    (a2 : Memref sig .tc .vmem S128x256 .f32) (h2 : a2.IsWhole) (a3 : Memref sig .tc .vmem S5000x256 .f32) (h3 : a3.IsWhole)
    (a4 : Memref sig .tc .vmem S1x256 .f32) (h4 : a4.IsWhole) (a5 : Memref sig .tc .vmem S1x256 .f32) (h5 : a5.IsWhole)
    (hc : ¬cond0_0 i) (x0 : Vec F S5000x128 .f32) (x1 : Vec F S128x256 .f32) (xo3 xo4 : Vec F S1x256 .f32) :
    out0_B_2 c i a1 h1 a2 h2 a3 h3 a4 h4 a5 h5 hc x0 x1 xo3 xo4 = k0_pay3 x0 x1 := by
  unfold out0_B_2
  rw [View.read_writes_eq_canon _ _ _ (cover0_B_2 c i a1 h1 a2 h2 a3 h3 a4 h4 a5 h5 hc x0 x1 xo3 xo4)]
  unfold kernelRun0_B
  dsimp only
  sl_unfold_words
  rw [View.canon_unit_zero hz2]
  simp only [View.readAt_eq_ld, h1.read_unread, h2.read_unread, View.ld_unit_zero (S := S5000x128) hz2,
    View.ld_unit_zero (S := S128x256) hz2]

/-- At the first point the running column sums are reset to the zero row, read back, and updated. -/
theorem out_A_3 (c : Dev nD) (i : grid0.Coords) (a1 : Memref sig .tc .vmem S5000x128 .f32) (h1 : a1.IsWhole)
    (a2 : Memref sig .tc .vmem S128x256 .f32) (h2 : a2.IsWhole) (a3 : Memref sig .tc .vmem S5000x256 .f32) (h3 : a3.IsWhole)
    (a4 : Memref sig .tc .vmem S1x256 .f32) (h4 : a4.IsWhole) (a5 : Memref sig .tc .vmem S1x256 .f32) (h5 : a5.IsWhole)
    (hc : cond0_0 i) (x0 : Vec F S5000x128 .f32) (x1 : Vec F S128x256 .f32) :
    out0_A_3 c i a1 h1 a2 h2 a3 h3 a4 h4 a5 h5 hc x0 x1 = k0_pay4 x0 x1 (k0_pay1 (F := F)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S1x256) hz2, View.readCov_unit_zero (S := S1x256) _ hz2]
  simp only [View.readAt_eq_ld, h1.read_unread, h2.read_unread, View.ld_unit_zero (S := S5000x128) hz2,
    View.ld_unit_zero (S := S128x256) hz2]

/-- At a later point they are updated from what the point before left. -/
theorem out_B_3 (c : Dev nD) (i : grid0.Coords) (a1 : Memref sig .tc .vmem S5000x128 .f32) (h1 : a1.IsWhole)
    (a2 : Memref sig .tc .vmem S128x256 .f32) (h2 : a2.IsWhole) (a3 : Memref sig .tc .vmem S5000x256 .f32) (h3 : a3.IsWhole)
    (a4 : Memref sig .tc .vmem S1x256 .f32) (h4 : a4.IsWhole) (a5 : Memref sig .tc .vmem S1x256 .f32) (h5 : a5.IsWhole)
    (hc : ¬cond0_0 i) (x0 : Vec F S5000x128 .f32) (x1 : Vec F S128x256 .f32) (xo3 xo4 : Vec F S1x256 .f32) :
    out0_B_3 c i a1 h1 a2 h2 a3 h3 a4 h4 a5 h5 hc x0 x1 xo3 xo4 = k0_pay4 x0 x1 xo3 := by
  unfold out0_B_3
  rw [View.read_writes_eq_canon _ _ _ (cover0_B_3 c i a1 h1 a2 h2 a3 h3 a4 h4 a5 h5 hc x0 x1 xo3 xo4)]
  unfold kernelRun0_B
  dsimp only
  sl_unfold_words
  rw [View.canon_unit_zero hz2]
  simp only [View.readAt_eq_ld, h1.read_unread, h2.read_unread, h4.read_unread, View.ld_unit_zero (S := S5000x128) hz2,
    View.ld_unit_zero (S := S128x256) hz2, View.ld_unit_zero (S := S1x256) hz2]

/-- The running column sums of squares at the first point: reset, read back, updated. -/
theorem out_A_4 (c : Dev nD) (i : grid0.Coords) (a1 : Memref sig .tc .vmem S5000x128 .f32) (h1 : a1.IsWhole)
    (a2 : Memref sig .tc .vmem S128x256 .f32) (h2 : a2.IsWhole) (a3 : Memref sig .tc .vmem S5000x256 .f32) (h3 : a3.IsWhole)
    (a4 : Memref sig .tc .vmem S1x256 .f32) (h4 : a4.IsWhole) (a5 : Memref sig .tc .vmem S1x256 .f32) (h5 : a5.IsWhole)
    (hc : cond0_0 i) (x0 : Vec F S5000x128 .f32) (x1 : Vec F S128x256 .f32) :
    out0_A_4 c i a1 h1 a2 h2 a3 h3 a4 h4 a5 h5 hc x0 x1 = k0_pay5 x0 x1 (k0_pay2 (F := F)) := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S1x256) hz2, View.readCov_unit_zero (S := S1x256) _ hz2]
  simp only [View.readAt_eq_ld, h1.read_unread, h2.read_unread, View.ld_unit_zero (S := S5000x128) hz2,
    View.ld_unit_zero (S := S128x256) hz2]

/-- The running column sums of squares at a later point. -/
theorem out_B_4 (c : Dev nD) (i : grid0.Coords) (a1 : Memref sig .tc .vmem S5000x128 .f32) (h1 : a1.IsWhole)
    (a2 : Memref sig .tc .vmem S128x256 .f32) (h2 : a2.IsWhole) (a3 : Memref sig .tc .vmem S5000x256 .f32) (h3 : a3.IsWhole)
    (a4 : Memref sig .tc .vmem S1x256 .f32) (h4 : a4.IsWhole) (a5 : Memref sig .tc .vmem S1x256 .f32) (h5 : a5.IsWhole)
    (hc : ¬cond0_0 i) (x0 : Vec F S5000x128 .f32) (x1 : Vec F S128x256 .f32) (xo3 xo4 : Vec F S1x256 .f32) :
    out0_B_4 c i a1 h1 a2 h2 a3 h3 a4 h4 a5 h5 hc x0 x1 xo3 xo4 = k0_pay5 x0 x1 xo4 := by
  unfold out0_B_4
  rw [View.read_writes_eq_canon _ _ _ (cover0_B_4 c i a1 h1 a2 h2 a3 h3 a4 h4 a5 h5 hc x0 x1 xo3 xo4)]
  unfold kernelRun0_B
  dsimp only
  sl_unfold_words
  rw [View.canon_unit_zero hz2]
  simp only [View.readAt_eq_ld, h1.read_unread, h2.read_unread, h5.read_unread, View.ld_unit_zero (S := S5000x128) hz2,
    View.ld_unit_zero (S := S128x256) hz2, View.ld_unit_zero (S := S1x256) hz2]

end Cert.KernelIdeal.R0
end
-- ==== Proof.Region0Pay.lean ====
/-
  The arithmetic of one grid point of the first region read entry by entry over the extended reals: the block
  product as the sum over the contracted index, and each statistic row's update as what the row held plus the
  sum over the block's 5000 rows of the product's column (or of its squares).
-/
import proofs.«413239_j75531294867868_1_alg».proof.Proof.Gen.KernelIdeal.Skeleton
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.R0

open Idealize.ShloMosaic Idealize.ShloMosaic.ValueIdx
open Cert.KernelIdeal Cert.KernelIdeal.Gen

/-! ## The body's arithmetic, entry by entry, over the extended reals -/

/-- The row coordinate of the left operand of the block product is the output's row. -/
theorem lhs_blk_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- Its column coordinate is the contracted index. -/
theorem lhs_blk_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
/-- The row coordinate of the right operand is the contracted index. -/
theorem rhs_blk_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
/-- Its column coordinate is the output's column. -/
theorem rhs_blk_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The block product at row p and column q: the sum over the 128 contracted indices of the features' entry times the weights' entry. -/
theorem pay3_apply (x0 : Vec Ideal S5000x128 .f32) (x1 : Vec Ideal S128x256 .f32) (p : Fin 5000) (q : Fin 256) :
    k0_pay3 (F := Ideal) x0 x1 (ix2 p q) = ∑ l : Fin 128, x0 (ix2 p l) * x1 (ix2 l q) := by
  unfold k0_pay3
  refine (Ideal.matmul_constant_zero_apply dot_S5000x128_S128x256_S5000x256_1_0_0_1_n_n none _ _ (ix2 p q)).trans ?_
  rw [← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er, shapeCast_self]
  rfl

/-- The row a reset stores is zero everywhere. -/
theorem pay1_apply (q : Fin 256) : k0_pay1 (F := Ideal) (ix2 0 q) = 0 := Ideal.ofBits_zero_f32
/-- Likewise for the row of squares. -/
theorem pay2_apply (q : Fin 256) : k0_pay2 (F := Ideal) (ix2 0 q) = 0 := Ideal.ofBits_zero_f32

/-- A sum over the rows of a [5000, 256] block, read at column q. -/
theorem colred_apply (src : FVec Ideal S5000x256 .f32) (hφ : FKind.Formats .f32)
    (hacc : (0x00000000#32 : BitVec 32) = FKind.add.neutral .f32 hφ) (q : Fin 256) :
    multiReduction .add [0] S256 src 0x00000000#32 reduces_S5000x256_S256 hφ hacc (ix1 q) = ∑ p : Fin 5000, src (ix2 p q) := by
  refine (Ideal.multiReduction_add_single src 0x00000000#32 reduces_S5000x256_S256 hφ hacc (ix1 q)).trans ?_
  refine Finset.sum_congr rfl fun p _ => congrArg src ?_
  funext a
  match a with
  | ⟨0, _⟩ => rfl
  | ⟨1, _⟩ => rfl

/-- The updated column sums at column q: what the row held plus the block product's column summed over the block's 5000 rows. -/
theorem pay4_apply (x0 : Vec Ideal S5000x128 .f32) (x1 : Vec Ideal S128x256 .f32) (v10 : Vec Ideal S1x256 .f32) (q : Fin 256) :
    k0_pay4 (F := Ideal) x0 x1 v10 (ix2 0 q) = v10 (ix2 0 q) + ∑ p : Fin 5000, k0_pay3 (F := Ideal) x0 x1 (ix2 p q) := by
  unfold k0_pay4
  dsimp only
  refine (addf_apply _ _ _).trans ?_
  refine congrArg₂ (· + ·) ?_ ?_
  · exact congrFun (shapeCast_self v10 _) _
  · refine (shapeCast_a_1a_apply _ _ 0 q).trans ?_
    exact colred_apply _ _ _ q

/-- The updated column sums of squares at column q. -/
theorem pay5_apply (x0 : Vec Ideal S5000x128 .f32) (x1 : Vec Ideal S128x256 .f32) (v16 : Vec Ideal S1x256 .f32) (q : Fin 256) :
    k0_pay5 (F := Ideal) x0 x1 v16 (ix2 0 q)
      = v16 (ix2 0 q) + ∑ p : Fin 5000, k0_pay3 (F := Ideal) x0 x1 (ix2 p q) * k0_pay3 (F := Ideal) x0 x1 (ix2 p q) := by
  unfold k0_pay5
  dsimp only
  refine (addf_apply _ _ _).trans ?_
  refine congrArg₂ (· + ·) ?_ ?_
  · exact congrFun (shapeCast_self v16 _) _
  · refine (shapeCast_a_1a_apply _ _ 0 q).trans ?_
    exact colred_apply _ _ _ q

end Cert.KernelIdeal.R0
end
-- ==== Proof.Region0.lean ====
/-
  The first region's arrays after its ten grid points: the product of the aggregated features with the first weight matrix, written block by block, and the two running column statistics of that product.

  Point t reads rows 5000 t … 5000 t + 4999 of the features and the whole weight matrix, writes their product back
  as the same rows of the product array, and adds the block's column sums and column sums of squares into two rows
  that point 0 resets to zero first and that are written back once, after point 9. So the product array ends as the
  product, and the two rows end as the sums over the ten blocks, which are the sums over all 50000 rows.
-/
import proofs.«413239_j75531294867868_1_alg».proof.Proof.Gen.KernelIdeal.Frame
import proofs.«413239_j75531294867868_1_alg».proof.Proof.Spec
import proofs.«413239_j75531294867868_1_alg».proof.Proof.Region0Pieces
import proofs.«413239_j75531294867868_1_alg».proof.Proof.Region0Pay
import Idealize.ShloMosaic.Lib.Pipeline.Value
import Idealize.ShloMosaic.PureOps.Ideal.Laws

set_option maxRecDepth 16384

noncomputable section

open scoped BigOperators

namespace Cert.KernelIdeal.R0

open Idealize.ShloMosaic Idealize.ShloMosaic.TcCoe Idealize.ShloMosaic.ValueIdx Idealize.SL.Sem
open Idealize.ShloMosaic.Pipeline (Dat)
open Cert.KernelIdeal Cert.KernelIdeal.Gen Cert.Gin

variable (V : (c : Dev nD) → (b : Ref sig .tc) → Buf (Elt Ideal) ((c : Thread nD τ).loc b))

/-! ## The matrices, and the blocks the grid points read -/

/-- The aggregated features as a matrix. -/
abbrev feat (c : Dev nD) : Mat 50000 128 := toMat (V c main_v12)
/-- The first weight matrix. -/
abbrev wts (c : Dev nD) : Mat 128 256 := toMat (V c main_arg4)
/-- Their product. -/
abbrev hprod (c : Dev nD) : Mat 50000 256 := Cert.Gin.matmul (feat V c) (wts V c)

/-- Row r of the block of point t is row 5000 t + r of the whole table. -/
def blkRow (t : Fin cfg0.N) (r : Fin 5000) : Fin 50000 :=
  ⟨5000 * t.val + r.val, by have ht : t.val < 10 := lt_of_lt_of_eq t.isLt N_0; have := r.isLt; omega⟩

/-- The block indices of the five windows at a point: the features' and the product's blocks move down the rows
    with the point, the weights and the two statistic rows are always their whole arrays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The features block a point reads. -/
abbrev xblk (c : Dev nD) (t : Fin cfg0.N) : Vec Ideal S5000x128 .f32 := iblk0 V c 0 t
/-- The weights as a point reads them. -/
abbrev wblk (c : Dev nD) (t : Fin cfg0.N) : Vec Ideal S128x256 .f32 := iblk0 V c 1 t

/-- Entry (r, l) of the features block of point t is entry (5000 t + r, l) of the features. -/
theorem xblk_apply (c : Dev nD) (t : Fin cfg0.N) (r : Fin 5000) (l : Fin 128) :
    xblk V c t (ix2 r l) = feat V c (blkRow t r) l := by
  obtain ⟨e0, e1, -⟩ := idx_facts t
  show ((cfg0.win 0).blk t).view.read (Elt Ideal) (V c main_v12) (ix2 r l) = V c main_v12 (ix2 (blkRow t r) l)
  rw [View.read_apply]
  show V c main_v12 _ = V c main_v12 _
  congr 1
  funext a
  apply Fin.ext
  match a with
  | ⟨0, _⟩ => show win0_0.index t (0 : Fin 2) * 5000 + 1 * r.val = 5000 * t.val + r.val; rw [e0]; omega
  | ⟨1, _⟩ => show win0_0.index t (1 : Fin 2) * 128 + 1 * l.val = l.val; rw [e1]; omega

/-- The weights block of any point is the weight matrix. -/
theorem wblk_apply (c : Dev nD) (t : Fin cfg0.N) (l : Fin 128) (q : Fin 256) :
    wblk V c t (ix2 l q) = wts V c l q := by
  obtain ⟨-, -, e0, e1, -⟩ := idx_facts t
  show ((cfg0.win 1).blk t).view.read (Elt Ideal) (V c main_arg4) (ix2 l q) = V c main_arg4 (ix2 l q)
  rw [View.read_apply]
  show V c main_arg4 _ = V c main_arg4 _
  congr 1
  funext a
  apply Fin.ext
  match a with
  | ⟨0, _⟩ => show win0_1.index t (0 : Fin 2) * 128 + 1 * l.val = l.val; rw [e0]; omega
  | ⟨1, _⟩ => show win0_1.index t (1 : Fin 2) * 256 + 1 * q.val = q.val; rw [e1]; omega

/-- So the block product of point t at (p, q) is the product matrix at (5000 t + p, q). -/
theorem prodblk_apply (c : Dev nD) (t : Fin cfg0.N) (p : Fin 5000) (q : Fin 256) :
    k0_pay3 (F := Ideal) (xblk V c t) (wblk V c t) (ix2 p q) = hprod V c (blkRow t p) q := by
  refine (pay3_apply (xblk V c t) (wblk V c t) p q).trans ?_
  show _ = ∑ l, feat V c (blkRow t p) l * wts V c l q
  exact Finset.sum_congr rfl fun l _ => congrArg₂ (· * ·) (xblk_apply V c t p l) (wblk_apply V c t l q)

/-! ## What the three output blocks hold after each point -/

/-- After every point the product's block is the block product of the point's inputs. -/
theorem out2_at (c : Dev nD) (t : Fin cfg0.N) :
    (outsAt0 V c t.val t.isLt).1 = k0_pay3 (F := Ideal) (xblk V c t) (wblk V c t) := by
  by_cases h0 : t.val % 10 = 0
  · rw [outsAt0_A V c t h0]
    dsimp only
    exact out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t) (wblk V c t)
  · rw [outsAt0_B V c t h0]
    dsimp only
    exact out_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk V c t) (wblk V c t)
      (outsAt0 V c (t.val - 1) (Nat.lt_of_le_of_lt (Nat.sub_le _ _) t.isLt)).2.1 (outsAt0 V c (t.val - 1) (Nat.lt_of_le_of_lt (Nat.sub_le _ _) t.isLt)).2.2

/-- The sum of column q of the product over the rows of block s (zero past the last block). -/
def blkSum (c : Dev nD) (s : ℕ) (q : Fin 256) : EReal :=
  if hs : s < cfg0.N then ∑ r : Fin 5000, hprod V c (blkRow ⟨s, hs⟩ r) q else 0
/-- The sum of its squares over the rows of block s. -/
def blkSumSq (c : Dev nD) (s : ℕ) (q : Fin 256) : EReal :=
  if hs : s < cfg0.N then ∑ r : Fin 5000, hprod V c (blkRow ⟨s, hs⟩ r) q * hprod V c (blkRow ⟨s, hs⟩ r) q else 0

/-- After point n the running column sums hold, at column q, the sum over the blocks 0 … n of the block's column sum:
    point 0 starts from the zero row, every later point adds its block to what the point before left. -/
theorem sum_at (c : Dev nD) : ∀ (n : ℕ) (h : n < cfg0.N) (q : Fin 256),
    ((outsAt0 V c n h).2.1 (ix2 0 q) : EReal) = ∑ s ∈ Finset.range (n + 1), blkSum V c s q
  | 0, h, q => by
    rw [outsAt0_A V c ⟨0, h⟩ rfl]
    dsimp only
    refine (congrFun (out_A_3 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (xblk V c ⟨0, h⟩) (wblk V c ⟨0, h⟩)) (ix2 0 q)).trans ?_
    refine (pay4_apply (xblk V c ⟨0, h⟩) (wblk V c ⟨0, h⟩) (k0_pay1 (F := Ideal)) q).trans ?_
    rw [pay1_apply, zero_add, Finset.sum_range_one]
    unfold blkSum
    rw [dif_pos h]
    exact Finset.sum_congr rfl fun r _ => prodblk_apply V c ⟨0, h⟩ r q
  | n + 1, h, q => by
    have hN : cfg0.N = 10 := N_0
    have hB : ¬(⟨n + 1, h⟩ : Fin cfg0.N).val % 10 = 0 := by dsimp only; omega
    rw [outsAt0_B V c ⟨n + 1, h⟩ hB]
    dsimp only
    refine (congrFun (out_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (xblk V c ⟨n + 1, h⟩) (wblk V c ⟨n + 1, h⟩)
      (outsAt0 V c n (Nat.lt_of_succ_lt h)).2.1 (outsAt0 V c n (Nat.lt_of_succ_lt h)).2.2) (ix2 0 q)).trans ?_
    refine (pay4_apply (xblk V c ⟨n + 1, h⟩) (wblk V c ⟨n + 1, h⟩) (outsAt0 V c n (Nat.lt_of_succ_lt h)).2.1 q).trans ?_
    rw [Finset.sum_range_succ]
    refine congrArg₂ (· + ·) (sum_at c n (Nat.lt_of_succ_lt h) q) ?_
    unfold blkSum
    rw [dif_pos h]
    exact Finset.sum_congr rfl fun r _ => prodblk_apply V c ⟨n + 1, h⟩ r q

/-- After point n the running column sums of squares hold the sum over the blocks 0 … n of the block's sum of squares. -/
theorem sumsq_at (c : Dev nD) : ∀ (n : ℕ) (h : n < cfg0.N) (q : Fin 256),
    ((outsAt0 V c n h).2.2 (ix2 0 q) : EReal) = ∑ s ∈ Finset.range (n + 1), blkSumSq V c s q
  | 0, h, q => by
    rw [outsAt0_A V c ⟨0, h⟩ rfl]
    dsimp only
    refine (congrFun (out_A_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (xblk V c ⟨0, h⟩) (wblk V c ⟨0, h⟩)) (ix2 0 q)).trans ?_
    refine (pay5_apply (xblk V c ⟨0, h⟩) (wblk V c ⟨0, h⟩) (k0_pay2 (F := Ideal)) q).trans ?_
    rw [pay2_apply, zero_add, Finset.sum_range_one]
    unfold blkSumSq
    rw [dif_pos h]
    exact Finset.sum_congr rfl fun r _ => congrArg₂ (· * ·) (prodblk_apply V c ⟨0, h⟩ r q) (prodblk_apply V c ⟨0, h⟩ r q)
  | n + 1, h, q => by
    have hN : cfg0.N = 10 := N_0
    have hB : ¬(⟨n + 1, h⟩ : Fin cfg0.N).val % 10 = 0 := by dsimp only; omega
    rw [outsAt0_B V c ⟨n + 1, h⟩ hB]
    dsimp only
    refine (congrFun (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (xblk V c ⟨n + 1, h⟩) (wblk V c ⟨n + 1, h⟩)
      (outsAt0 V c n (Nat.lt_of_succ_lt h)).2.1 (outsAt0 V c n (Nat.lt_of_succ_lt h)).2.2) (ix2 0 q)).trans ?_
    refine (pay5_apply (xblk V c ⟨n + 1, h⟩) (wblk V c ⟨n + 1, h⟩) (outsAt0 V c n (Nat.lt_of_succ_lt h)).2.2 q).trans ?_
    rw [Finset.sum_range_succ]
    refine congrArg₂ (· + ·) (sumsq_at c n (Nat.lt_of_succ_lt h) q) ?_
    unfold blkSumSq
    rw [dif_pos h]
    exact Finset.sum_congr rfl fun r _ => congrArg₂ (· * ·) (prodblk_apply V c ⟨n + 1, h⟩ r q) (prodblk_apply V c ⟨n + 1, h⟩ r q)

/-! ## From the blocks to the arrays -/

/-- The product as contents of the product array. -/
abbrev prodArr (c : Dev nD) : Buf (Elt Ideal) ((c : Thread nD τ).loc main_v17_0) :=
  fun i => hprod V c ⟨(i 0).val, idx2_lt0 i⟩ ⟨(i 1).val, idx2_lt1 i⟩

/-- Every point writes back its block of the product: rows 5000 t … 5000 t + 4999, all 256 columns. -/
theorem flushed2_eq (c : Dev nD) (t : Fin cfg0.N) :
    (dat0 V c).flushed 2 t = ((cfg0.win 2).blk t).view.read (Elt Ideal) (prodArr V c) := by
  show (cfg0.win 2).cut (grid0.coords t) ((dat0 V c).after 2 t) = _
  rw [after0_2, out2_at]
  obtain ⟨-, -, -, -, e0, e1, -⟩ := idx_facts t
  funext j
  have hj0 : (j 0).val < 5000 := (j 0).isLt
  have hj1 : (j 1).val < 256 := (j 1).isLt
  have hx : (cfg0.win 2).xinj (grid0.coords t) j = ix2 ⟨(j 0).val, hj0⟩ ⟨(j 1).val, hj1⟩ := funext fun a => by
    match a with
    | ⟨0, _⟩ => rfl
    | ⟨1, _⟩ => rfl
  show k0_pay3 (F := Ideal) (xblk V c t) (wblk V c t) ((cfg0.win 2).xinj (grid0.coords t) j)
    = prodArr V c (((cfg0.win 2).blk t).view.emb j)
  rw [hx]
  refine (prodblk_apply V c t ⟨(j 0).val, hj0⟩ ⟨(j 1).val, hj1⟩).trans ?_
  show hprod V c _ _ = hprod V c _ _
  congr 1
  · apply Fin.ext
    show 5000 * t.val + (j 0).val = win0_2.index t (0 : Fin 2) * 5000 + 1 * (j 0).val
    rw [e0]; omega
  · apply Fin.ext
    show (j 1).val = win0_2.index t (1 : Fin 2) * 256 + 1 * (j 1).val
    rw [e1]; omega

/-- The ten blocks cover the product array, so after the last point it holds the product. -/
theorem final2 (c : Dev nD) : (dat0 V c).arrAt 2 cfg0.N = prodArr V c :=
  (dat0 V c).arrAt_eq_of_cover 2 (prodArr V c) (fun t _ => flushed2_eq V c t) fun i => by
    have hi0 : (i 0 : Nat) < 50000 := (i 0).isLt
    have hi1 : (i 1 : Nat) < 256 := (i 1).isLt
    have ht : (i 0 : Nat) / 5000 < cfg0.N := by rw [show cfg0.N = 10 from N_0]; omega
    obtain ⟨-, -, -, -, e0, e1, -⟩ := idx_facts ⟨(i 0 : Nat) / 5000, ht⟩
    refine ⟨⟨(i 0 : Nat) / 5000, ht⟩, flush0_2 _, ?_⟩
    show i ∈ ((View.whole main_v17_0).slice (win0_2.rect ⟨(i 0 : Nat) / 5000, ht⟩)).set
    rw [View.set_slice_whole, Rect.mem_set_unit]
    intro a
    match a with
    | ⟨0, _⟩ =>
      show win0_2.index ⟨(i 0 : Nat) / 5000, ht⟩ (0 : Fin 2) * 5000 ≤ (i 0 : Nat)
        ∧ (i 0 : Nat) < win0_2.index ⟨(i 0 : Nat) / 5000, ht⟩ (0 : Fin 2) * 5000 + 5000
      rw [e0]; dsimp only; omega
    | ⟨1, _⟩ =>
      show win0_2.index ⟨(i 0 : Nat) / 5000, ht⟩ (1 : Fin 2) * 256 ≤ (i 1 : Nat)
        ∧ (i 1 : Nat) < win0_2.index ⟨(i 0 : Nat) / 5000, ht⟩ (1 : Fin 2) * 256 + 256
      rw [e1]; omega

/-- The last of the ten points. -/
theorem lt9 : 9 < cfg0.N := by rw [show cfg0.N = 10 from N_0]; decide

/-- What the running column sums hold after the last point, as contents of their array. -/
abbrev sumArr (c : Dev nD) : Buf (Elt Ideal) ((c : Thread nD τ).loc main_v17_1) := (outsAt0 V c 9 lt9).2.1
/-- What the running column sums of squares hold after the last point. -/
abbrev sumsqArr (c : Dev nD) : Buf (Elt Ideal) ((c : Thread nD τ).loc main_v17_2) := (outsAt0 V c 9 lt9).2.2

/-- The one write-back of the column sums, after the last point, writes the whole row: its block is the array. -/
theorem flushed3_eq (c : Dev nD) (t : Fin cfg0.N) (hf : (cfg0.win 3).flush t = true) :
    (dat0 V c).flushed 3 t = ((cfg0.win 3).blk t).view.read (Elt Ideal) (sumArr V c) := by
  have hN : cfg0.N = 10 := N_0
  have h9 : t.val = 9 := by have := (flush0_3 t).mp hf; have := t.isLt; omega
  obtain rfl : t = ⟨9, lt9⟩ := Fin.ext h9
  obtain ⟨-, -, -, -, -, -, e0, e1, -⟩ := idx_facts ⟨9, lt9⟩
  show (cfg0.win 3).cut (grid0.coords ⟨9, lt9⟩) ((dat0 V c).after 3 ⟨9, lt9⟩) = _
  rw [after0_3]
  have hz' : (fun a => win0_3.index ⟨9, lt9⟩ a * main_v17_1.ty.shape.size a) = fun _ => 0 := funext fun a => by
    match a with
    | ⟨0, _⟩ => show win0_3.index ⟨9, lt9⟩ (0 : Fin 2) * 1 = 0; rw [e0]
    | ⟨1, _⟩ => show win0_3.index ⟨9, lt9⟩ (1 : Fin 2) * 256 = 0; rw [e1]
  exact (Memref.read_access_unit_zero (Elt Ideal) main_v17_1 hz' (fun a => by rw [congrFun hz' a]; simp) (sumArr V c)).symm

/-- Likewise for the column sums of squares. -/
theorem flushed4_eq (c : Dev nD) (t : Fin cfg0.N) (hf : (cfg0.win 4).flush t = true) :
    (dat0 V c).flushed 4 t = ((cfg0.win 4).blk t).view.read (Elt Ideal) (sumsqArr V c) := by
  have hN : cfg0.N = 10 := N_0
  have h9 : t.val = 9 := by have := (flush0_4 t).mp hf; have := t.isLt; omega
  obtain rfl : t = ⟨9, lt9⟩ := Fin.ext h9
  obtain ⟨-, -, -, -, -, -, -, -, e0, e1⟩ := idx_facts ⟨9, lt9⟩
  show (cfg0.win 4).cut (grid0.coords ⟨9, lt9⟩) ((dat0 V c).after 4 ⟨9, lt9⟩) = _
  rw [after0_4]
  have hz' : (fun a => win0_4.index ⟨9, lt9⟩ a * main_v17_2.ty.shape.size a) = fun _ => 0 := funext fun a => by
    match a with
    | ⟨0, _⟩ => show win0_4.index ⟨9, lt9⟩ (0 : Fin 2) * 1 = 0; rw [e0]
    | ⟨1, _⟩ => show win0_4.index ⟨9, lt9⟩ (1 : Fin 2) * 256 = 0; rw [e1]
  exact (Memref.read_access_unit_zero (Elt Ideal) main_v17_2 hz' (fun a => by rw [congrFun hz' a]; simp) (sumsqArr V c)).symm

/-- So the column sums' array ends holding what the row held after the last point. -/
theorem final3 (c : Dev nD) : (dat0 V c).arrAt 3 cfg0.N = sumArr V c :=
  (dat0 V c).arrAt_eq_of_cover 3 (sumArr V c) (flushed3_eq V c) fun i => by
    have hi0 : (i 0 : Nat) < 1 := (i 0).isLt
    have hi1 : (i 1 : Nat) < 256 := (i 1).isLt
    obtain ⟨-, -, -, -, -, -, e0, e1, -⟩ := idx_facts ⟨9, lt9⟩
    refine ⟨⟨9, lt9⟩, (flush0_3 _).mpr rfl, ?_⟩
    show i ∈ ((View.whole main_v17_1).slice (win0_3.rect ⟨9, lt9⟩)).set
    rw [View.set_slice_whole, Rect.mem_set_unit]
    intro a
    match a with
    | ⟨0, _⟩ =>
      show win0_3.index ⟨9, lt9⟩ (0 : Fin 2) * 1 ≤ (i 0 : Nat) ∧ (i 0 : Nat) < win0_3.index ⟨9, lt9⟩ (0 : Fin 2) * 1 + 1
      rw [e0]; omega
    | ⟨1, _⟩ =>
      show win0_3.index ⟨9, lt9⟩ (1 : Fin 2) * 256 ≤ (i 1 : Nat) ∧ (i 1 : Nat) < win0_3.index ⟨9, lt9⟩ (1 : Fin 2) * 256 + 256
      rw [e1]; omega

/-- And the array of the sums of squares likewise. -/
theorem final4 (c : Dev nD) : (dat0 V c).arrAt 4 cfg0.N = sumsqArr V c :=
  (dat0 V c).arrAt_eq_of_cover 4 (sumsqArr V c) (flushed4_eq V c) fun i => by
    have hi0 : (i 0 : Nat) < 1 := (i 0).isLt
    have hi1 : (i 1 : Nat) < 256 := (i 1).isLt
    obtain ⟨-, -, -, -, -, -, -, -, e0, e1⟩ := idx_facts ⟨9, lt9⟩
    refine ⟨⟨9, lt9⟩, (flush0_4 _).mpr rfl, ?_⟩
    show i ∈ ((View.whole main_v17_2).slice (win0_4.rect ⟨9, lt9⟩)).set
    rw [View.set_slice_whole, Rect.mem_set_unit]
    intro a
    match a with
    | ⟨0, _⟩ =>
      show win0_4.index ⟨9, lt9⟩ (0 : Fin 2) * 1 ≤ (i 0 : Nat) ∧ (i 0 : Nat) < win0_4.index ⟨9, lt9⟩ (0 : Fin 2) * 1 + 1
      rw [e0]; omega
    | ⟨1, _⟩ =>
      show win0_4.index ⟨9, lt9⟩ (1 : Fin 2) * 256 ≤ (i 1 : Nat) ∧ (i 1 : Nat) < win0_4.index ⟨9, lt9⟩ (1 : Fin 2) * 256 + 256
      rw [e1]; omega

/-- The block sums of the ten blocks are the sum over all 50000 rows. -/
theorem sum_blocks (f : ℕ → EReal) (g : Fin 10 → EReal) (hfg : ∀ t : Fin 10, f t.val = g t) :
    ∑ s ∈ Finset.range 10, f s = ∑ t : Fin 10, g t := by
  rw [← Fin.sum_univ_eq_sum_range]
  exact Finset.sum_congr rfl fun t _ => hfg t

/-! ## The three arrays after the region -/

/-- The product array: entry (i, j) is the sum over k of the features' entry (i, k) times the weights' entry (k, j). -/
theorem h1_eq (c : Dev nD) :
    toMat ((dat0 V c).arrAt 2 cfg0.N) = matmul (toMat (V c main_v12)) (toMat (V c main_arg4)) := by
  refine (congrArg toMat (final2 V c)).trans ?_
  funext i j
  rfl

/-- The running column sums after the last point: each column of the product summed over all 50000 rows. -/
theorem sum_eq (c : Dev nD) :
    toRow ((dat0 V c).arrAt 3 cfg0.N) = colSum (matmul (toMat (V c main_v12)) (toMat (V c main_arg4))) := by
  refine (congrArg toRow (final3 V c)).trans ?_
  funext q
  show ((outsAt0 V c 9 lt9).2.1 (ix2 0 q) : EReal) = ∑ i, hprod V c i q
  rw [sum_at V c 9 lt9 q, sum_rows_blocks]
  refine sum_blocks _ _ fun t => ?_
  have ht : t.val < cfg0.N := by rw [show cfg0.N = 10 from N_0]; exact t.isLt
  unfold blkSum
  rw [dif_pos ht]
  rfl

/-- The running column sums of squares after the last point. -/
theorem sumsq_eq (c : Dev nD) :
    toRow ((dat0 V c).arrAt 4 cfg0.N) = colSumSq (matmul (toMat (V c main_v12)) (toMat (V c main_arg4))) := by
  refine (congrArg toRow (final4 V c)).trans ?_
  funext q
  show ((outsAt0 V c 9 lt9).2.2 (ix2 0 q) : EReal) = ∑ i, hprod V c i q * hprod V c i q
  rw [sumsq_at V c 9 lt9 q, sum_rows_blocks]
  refine sum_blocks _ _ fun t => ?_
  have ht : t.val < cfg0.N := by rw [show cfg0.N = 10 from N_0]; exact t.isLt
  unfold blkSumSq
  rw [dif_pos ht]
  rfl

end Cert.KernelIdeal.R0

end
-- ==== Proof.Region1Pieces.lean ====
/-
  What the second region's body leaves in its three output buffers at one grid point, case by case, as terms of the point's
  input blocks: the product block, and the two running statistic rows (reset to zero and read back at the first point,
  carried over from the point before at every later one).
-/
import proofs.«413239_j75531294867868_1_alg».proof.Proof.Gen.KernelIdeal.Frame
import Idealize.ShloMosaic.Lib.Pipeline.Value

set_option maxRecDepth 16384

noncomputable section

namespace Cert.KernelIdeal.R1

open Idealize.ShloMosaic Idealize.ShloMosaic.TcCoe Idealize.SL.Sem
open Cert.KernelIdeal Cert.KernelIdeal.Gen

section Pieces
variable {F : FTy → Type} [FloatOps F]
variable (c : Dev nD) (i : grid1.Coords)
  (a1 : Memref sig .tc .vmem S5000x256 .f32) (h1 : a1.IsWhole) (a2 : Memref sig .tc .vmem S1x256 .f32) (h2 : a2.IsWhole)
  (a3 : Memref sig .tc .vmem S1x256 .f32) (h3 : a3.IsWhole) (a4 : Memref sig .tc .vmem S1x256 .f32) (h4 : a4.IsWhole)
  (a5 : Memref sig .tc .vmem S1x256 .f32) (h5 : a5.IsWhole) (a6 : Memref sig .tc .vmem S256x256 .f32) (h6 : a6.IsWhole)
  (a7 : Memref sig .tc .vmem S5000x256 .f32) (h7 : a7.IsWhole) (a8 : Memref sig .tc .vmem S1x256 .f32) (h8 : a8.IsWhole)
  (a9 : Memref sig .tc .vmem S1x256 .f32) (h9 : a9.IsWhole)
  (x0 : Vec F S5000x256 .f32) (x1 x2 x3 x4 : Vec F S1x256 .f32) (x5 : Vec F S256x256 .f32) (xo7 xo8 : Vec F S1x256 .f32)

theorem hz : (![0, 0] : Fin 2 → Nat) = fun _ => 0 := funext fun a => by fin_cases a <;> rfl

/-- At a later point the product block is the body's product of the normalised, rectified input block with the weights. -/
theorem out_B_6 (hc : ¬cond1_0 i) :
    out1_B_6 c i a1 h1 a2 h2 a3 h3 a4 h4 a5 h5 a6 h6 a7 h7 a8 h8 a9 h9 hc x0 x1 x2 x3 x4 x5 xo7 xo8 = k1_pay5 x0 x1 x2 x3 x4 x5 := by
  unfold out1_B_6
  rw [View.read_writes_eq_canon _ _ _ (cover1_B_6 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz]
  simp only [View.readAt_eq_ld, h1.read_unread, h2.read_unread, h3.read_unread, h4.read_unread, h5.read_unread, h6.read_unread,
    View.ld_unit_zero (S := S5000x256) hz, View.ld_unit_zero (S := S1x256) hz, View.ld_unit_zero (S := S256x256) hz]

/-- At a later point the running column sums are what the point before left plus the block's column sums. -/
theorem out_B_7 (hc : ¬cond1_0 i) :
    out1_B_7 c i a1 h1 a2 h2 a3 h3 a4 h4 a5 h5 a6 h6 a7 h7 a8 h8 a9 h9 hc x0 x1 x2 x3 x4 x5 xo7 xo8 = k1_pay1 (k1_pay6 xo7) (k1_pay7 x0 x1 x2 x3 x4 x5) := by
  unfold out1_B_7
  rw [View.read_writes_eq_canon _ _ _ (cover1_B_7 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz]
  simp only [View.readAt_eq_ld, h1.read_unread, h2.read_unread, h3.read_unread, h4.read_unread, h5.read_unread, h6.read_unread, h8.read_unread,
    View.ld_unit_zero (S := S5000x256) hz, View.ld_unit_zero (S := S1x256) hz, View.ld_unit_zero (S := S256x256) hz]

/-- At a later point the running column sums of squares are what the point before left plus the block's. -/
theorem out_B_8 (hc : ¬cond1_0 i) :
    out1_B_8 c i a1 h1 a2 h2 a3 h3 a4 h4 a5 h5 a6 h6 a7 h7 a8 h8 a9 h9 hc x0 x1 x2 x3 x4 x5 xo7 xo8 = k1_pay2 (k1_pay5 x0 x1 x2 x3 x4 x5) xo8 := by
  unfold out1_B_8
  rw [View.read_writes_eq_canon _ _ _ (cover1_B_8 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz]
  simp only [View.readAt_eq_ld, h1.read_unread, h2.read_unread, h3.read_unread, h4.read_unread, h5.read_unread, h6.read_unread, h9.read_unread,
    View.ld_unit_zero (S := S5000x256) hz, View.ld_unit_zero (S := S1x256) hz, View.ld_unit_zero (S := S256x256) hz]

/-- At the first point the product block is the same product. -/
theorem out_A_6 (hc : cond1_0 i) :
    out1_A_6 c i a1 h1 a2 h2 a3 h3 a4 h4 a5 h5 a6 h6 a7 h7 a8 h8 a9 h9 hc x0 x1 x2 x3 x4 x5 = k1_pay5 x0 x1 x2 x3 x4 x5 := by
  unfold out1_A_6
  rw [View.read_writes_eq_canon _ _ _ (cover1_A_6 c i a1 h1 a2 h2 a3 h3 a4 h4 a5 h5 a6 h6 a7 h7 a8 h8 a9 h9 hc x0 x1 x2 x3 x4 x5)]
  unfold kernelRun1_A
  dsimp only
  sl_unfold_words
  rw [View.canon_unit_zero hz]
  simp only [View.readAt_eq_ld, h1.read_unread, h2.read_unread, h3.read_unread, h4.read_unread, h5.read_unread, h6.read_unread,
    View.ld_unit_zero (S := S5000x256) hz, View.ld_unit_zero (S := S1x256) hz, View.ld_unit_zero (S := S256x256) hz]

/-- At the first point the running column sums are the zero row, read back, plus the block's column sums. -/
theorem out_A_7 (hc : cond1_0 i) :
    out1_A_7 c i a1 h1 a2 h2 a3 h3 a4 h4 a5 h5 a6 h6 a7 h7 a8 h8 a9 h9 hc x0 x1 x2 x3 x4 x5 = k1_pay1 (k1_pay6 k1_pay3) (k1_pay7 x0 x1 x2 x3 x4 x5) := by
  unfold out1_A_7
  rw [View.read_writes_eq_canon _ _ _ (cover1_A_7 c i a1 h1 a2 h2 a3 h3 a4 h4 a5 h5 a6 h6 a7 h7 a8 h8 a9 h9 hc x0 x1 x2 x3 x4 x5)]
  unfold kernelRun1_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread,
    View.ld_unit_zero (S := S5000x256) hz, View.ld_unit_zero (S := S1x256) hz, View.ld_unit_zero (S := S256x256) hz]

/-- At the first point the running column sums of squares are the zero row, read back, plus the block's. -/
theorem out_A_8 (hc : cond1_0 i) :
    out1_A_8 c i a1 h1 a2 h2 a3 h3 a4 h4 a5 h5 a6 h6 a7 h7 a8 h8 a9 h9 hc x0 x1 x2 x3 x4 x5 = k1_pay2 (k1_pay5 x0 x1 x2 x3 x4 x5) k1_pay4 := by
  unfold out1_A_8
  rw [View.read_writes_eq_canon _ _ _ (cover1_A_8 c i a1 h1 a2 h2 a3 h3 a4 h4 a5 h5 a6 h6 a7 h7 a8 h8 a9 h9 hc x0 x1 x2 x3 x4 x5)]
  unfold kernelRun1_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread,
    View.ld_unit_zero (S := S5000x256) hz, View.ld_unit_zero (S := S1x256) hz, View.ld_unit_zero (S := S256x256) hz]

end Pieces

end Cert.KernelIdeal.R1

end
-- ==== Proof.Region1Pay.lean ====
/-
  The second region's payloads read entry by entry over the extended reals: the product block is the block normalised,
  scaled, shifted and rectified, times the weights; the statistic rows' updates add the block's column sums, and column
  sums of squares, onto what was there; the reset rows are zero.
-/
import proofs.«413239_j75531294867868_1_alg».proof.Proof.Gen.KernelIdeal.Skeleton
import proofs.«413239_j75531294867868_1_alg».proof.Proof.Spec
import Idealize.ShloMosaic.Lib.Pipeline.Value
import Idealize.ShloMosaic.PureOps.Ideal.Laws

set_option maxRecDepth 16384

noncomputable section

open scoped BigOperators

namespace Cert.KernelIdeal.R1

open Idealize.ShloMosaic Idealize.ShloMosaic.ValueIdx Idealize.SL.Sem
open Cert.KernelIdeal Cert.KernelIdeal.Gen Cert.Gin

section Payloads

/-- A row broadcast over the block's rows reads the row's entry in the same column. -/
theorem bcast_apply (v : FVec Ideal S1x256 .f32) (r : Fin 5000) (l : Fin 256) :
    broadcastTo S5000x256 v broadcasts_S1x256_S5000x256 (ix2 r l) = v (ix2 0 l) :=
  broadcastTo_apply v broadcasts_S1x256_S5000x256 (ix2 r l) (ix2 0 l) fun a => by
    match a with
    | ⟨0, _⟩ => rfl
    | ⟨1, _⟩ => rfl

/-- A column reduction of a [5000,256] block, stored as a [1,256] row, is at column `j` the sum over the block's rows. -/
theorem colred_apply (src : FVec Ideal S5000x256 .f32) (j : Fin 256) :
    shapeCast S1x256 (multiReduction (F := Ideal) .add [0] S256 src 0x00000000#32 reduces_S5000x256_S256 (.inl rfl) rfl)
      shapeCasts_S256_S1x256 (ix2 0 j) = ∑ r : Fin 5000, src (ix2 r j) := by
  refine (shapeCast_apply _ shapeCasts_S256_S1x256 (ix2 0 j) (ix1 j) ?_).trans ?_
  · rw [Shape.rowMajor_val_one, Shape.rowMajor_val_two]
    show j.val = 0 * 256 + j.val
    omega
  · refine (Ideal.multiReduction_add_single src 0x00000000#32 reduces_S5000x256_S256 (.inl rfl) rfl (ix1 j)).trans ?_
    refine Finset.sum_congr rfl fun r _ => congrArg src ?_
    funext a
    apply Fin.ext
    match a with
    | ⟨0, _⟩ => rfl
    | ⟨1, _⟩ => rfl

theorem lhs_mm_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_mm_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs_mm_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs_mm_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The block product into the zero accumulator, at row `r` and column `j`: the sum over the contracted index. -/
theorem mm_apply (lhs : FVec Ideal S5000x256 .bf16) (rhs : FVec Ideal S256x256 .bf16) (r : Fin 5000) (j : Fin 256) :
    Idealize.ShloMosaic.matmul dot_S5000x256_S256x256_S5000x256_1_0_0_1_n_n none lhs rhs (constant S5000x256 .f32 0x00000000#32) (ix2 r j)
      = ∑ l : Fin 256, lhs (ix2 r l) * rhs (ix2 l j) := by
  simp only [Idealize.ShloMosaic.matmul]
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 r j) ((ValueIdx.contrEquiv1 dot_S5000x256_S256x256_S5000x256_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S5000x256_S256x256_S5000x256_1_0_0_1_n_n.rhsIdx (ix2 r j) ((ValueIdx.contrEquiv1 dot_S5000x256_S256x256_S5000x256_1_0_0_1_n_n 256 rfl rfl).symm k) = ix2 k j := funext fun a => Fin.ext (by
    match a with
    | ⟨0, _⟩ => exact (rhs_mm_0 _ _).trans hk
    | ⟨1, _⟩ => exact rhs_mm_1 _ _)
  rw [el, er]

/-- The body's product block: the block normalised, scaled, shifted and rectified, times the weights. -/
theorem pay5_eq (x0 : Vec Ideal S5000x256 .f32) (x1 x2 x3 x4 : Vec Ideal S1x256 .f32) (x5 : Vec Ideal S256x256 .f32) :
    toMat (k1_pay5 (F := Ideal) x0 x1 x2 x3 x4 x5)
      = Cert.Gin.matmul (bnRelu (toRow x1) (toRow x2) (toRow x3) (toRow x4) (toMat x0)) (toMat x5) := by
  funext r j
  unfold k1_pay5
  refine (mm_apply _ _ r j).trans ?_
  refine Finset.sum_congr rfl fun l _ => ?_
  simp only [shapeCast_self, truncf_apply, maximumf_apply, addf_apply, mulf_apply, subf_apply, bcast_apply, broadcast_apply]
  rfl

/-- The block's column sums, as the body takes them. -/
theorem pay7_apply (x0 : Vec Ideal S5000x256 .f32) (x1 x2 x3 x4 : Vec Ideal S1x256 .f32) (x5 : Vec Ideal S256x256 .f32) (j : Fin 256) :
    toRow (k1_pay7 (F := Ideal) x0 x1 x2 x3 x4 x5) j = colSum (toMat (k1_pay5 (F := Ideal) x0 x1 x2 x3 x4 x5)) j := by
  unfold k1_pay7
  exact colred_apply _ j

/-- The running sums' update: what was there plus the block's column sums. -/
theorem pay1_apply (a b : Vec Ideal S1x256 .f32) (j : Fin 256) : toRow (k1_pay1 (F := Ideal) a b) j = toRow a j + toRow b j := rfl

theorem pay6_eq (v : Vec Ideal S1x256 .f32) : k1_pay6 (F := Ideal) v = v := by
  unfold k1_pay6
  exact shapeCast_self _ _

/-- The running sums of squares' update: what was there plus the block's column sums of squares. -/
theorem pay2_apply (p : Vec Ideal S5000x256 .f32) (v : Vec Ideal S1x256 .f32) (j : Fin 256) :
    toRow (k1_pay2 (F := Ideal) p v) j = toRow v j + colSumSq (toMat p) j := by
  unfold k1_pay2
  refine congrArg₂ (· + ·) ?_ ?_
  · exact congrFun (shapeCast_self v _) (ix2 0 j)
  · exact colred_apply _ j

/-- The reset rows are zero. -/
theorem pay3_apply (j : Fin 256) : toRow (k1_pay3 (F := Ideal)) j = 0 := Ideal.ofBits_zero_f32
theorem pay4_apply (j : Fin 256) : toRow (k1_pay4 (F := Ideal)) j = 0 := Ideal.ofBits_zero_f32

end Payloads

end Cert.KernelIdeal.R1

end
-- ==== Proof.Region1.lean ====
/-
  The second region's arrays after its ten grid points: the first normalisation and rectifier applied to the first product, multiplied by the second weight matrix block by block, and the two running column statistics of that second product.
-/
import proofs.«413239_j75531294867868_1_alg».proof.Proof.Gen.KernelIdeal.Frame
import proofs.«413239_j75531294867868_1_alg».proof.Proof.Spec
import proofs.«413239_j75531294867868_1_alg».proof.Proof.Region1Pieces
import proofs.«413239_j75531294867868_1_alg».proof.Proof.Region1Pay
import Idealize.ShloMosaic.Lib.Pipeline.Value
import Idealize.ShloMosaic.PureOps.Ideal.Laws

set_option maxRecDepth 16384

noncomputable section

open scoped BigOperators

namespace Cert.KernelIdeal.R1

open Idealize.ShloMosaic Idealize.ShloMosaic.TcCoe Idealize.ShloMosaic.ValueIdx Idealize.SL.Sem
open Idealize.ShloMosaic.Pipeline (Dat)
open Cert.KernelIdeal Cert.KernelIdeal.Gen Cert.Gin

variable (V : (c : Dev nD) → (b : Ref sig .tc) → Buf (Elt Ideal) ((c : Thread nD τ).loc b))

/-- The normalised, rectified first product as the region reads it: mean, variance, scale and shift rows from the region's
    entry contents. -/
abbrev act (c : Dev nD) : Mat 50000 256 :=
  bnRelu (toRow (V c main_v19)) (toRow (V c main_v23)) (toRow (V c main_v13)) (toRow (V c main_v14)) (toMat (V c main_v17_0))

/-- The six input blocks of a grid point, each at its literal type: the first product's rows `5000·t … 5000·t + 4999`,
    the mean, variance, scale and shift rows, and the second weight matrix. -/
abbrev b0 (c : Dev nD) (t : Fin cfg1.N) : Vec Ideal S5000x256 .f32 := iblk1 V c 0 t
abbrev b1 (c : Dev nD) (t : Fin cfg1.N) : Vec Ideal S1x256 .f32 := iblk1 V c 1 t
abbrev b2 (c : Dev nD) (t : Fin cfg1.N) : Vec Ideal S1x256 .f32 := iblk1 V c 2 t
abbrev b3 (c : Dev nD) (t : Fin cfg1.N) : Vec Ideal S1x256 .f32 := iblk1 V c 3 t
abbrev b4 (c : Dev nD) (t : Fin cfg1.N) : Vec Ideal S1x256 .f32 := iblk1 V c 4 t
abbrev b5 (c : Dev nD) (t : Fin cfg1.N) : Vec Ideal S256x256 .f32 := iblk1 V c 5 t

theorem tlt (t : Fin cfg1.N) : t.val < 10 := lt_of_lt_of_eq t.isLt N_1

/-- The block indices over the grid: the two [5000,256] windows move down the rows with the point, every other window
    stays at block (0,0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 ∧ True :=
  (by decide +kernel : ∀ t : Fin grid1.N, _)

/-- Row `r` of the first product's block at point `t` is row `5000·t + r` of the array. -/
theorem b0_apply (c : Dev nD) (t : Fin cfg1.N) (r : Fin 5000) (l : Fin 256) :
    toMat (b0 V c t) r l = toMat (V c main_v17_0) ⟨5000 * t.val + r.val, by have := tlt t; have := r.isLt; omega⟩ l := by
  obtain ⟨e0, e1, -⟩ := idx1 t
  show iblk1 V c 0 t (ix2 r l) = V c main_v17_0 (ix2 _ l)
  unfold iblk1
  rw [View.read_apply]
  show V c main_v17_0 _ = V c main_v17_0 _
  congr 1
  funext a
  apply Fin.ext
  match a with
  | ⟨0, _⟩ => show win1_0.index t 0 * 5000 + 1 * r.val = 5000 * t.val + r.val; rw [e0]; omega
  | ⟨1, _⟩ => show win1_0.index t 1 * 256 + 1 * l.val = l.val; rw [e1]; omega

theorem b1_eq (c : Dev nD) (t : Fin cfg1.N) : toRow (b1 V c t) = toRow (V c main_v19) := by
  obtain ⟨-, -, e0, e1, -⟩ := idx1 t
  funext l
  show iblk1 V c 1 t (ix2 0 l) = V c main_v19 (ix2 0 l)
  unfold iblk1
  rw [View.read_apply]
  show V c main_v19 _ = V c main_v19 _
  congr 1
  funext a
  apply Fin.ext
  match a with
  | ⟨0, _⟩ => show win1_1.index t 0 * 1 + 1 * 0 = 0; rw [e0]
  | ⟨1, _⟩ => show win1_1.index t 1 * 256 + 1 * l.val = l.val; rw [e1]; omega

theorem b2_eq (c : Dev nD) (t : Fin cfg1.N) : toRow (b2 V c t) = toRow (V c main_v23) := by
  obtain ⟨-, -, -, -, e0, e1, -⟩ := idx1 t
  funext l
  show iblk1 V c 2 t (ix2 0 l) = V c main_v23 (ix2 0 l)
  unfold iblk1
  rw [View.read_apply]
  show V c main_v23 _ = V c main_v23 _
  congr 1
  funext a
  apply Fin.ext
  match a with
  | ⟨0, _⟩ => show win1_2.index t 0 * 1 + 1 * 0 = 0; rw [e0]
  | ⟨1, _⟩ => show win1_2.index t 1 * 256 + 1 * l.val = l.val; rw [e1]; omega

theorem b3_eq (c : Dev nD) (t : Fin cfg1.N) : toRow (b3 V c t) = toRow (V c main_v13) := by
  obtain ⟨-, -, -, -, -, -, e0, e1, -⟩ := idx1 t
  funext l
  show iblk1 V c 3 t (ix2 0 l) = V c main_v13 (ix2 0 l)
  unfold iblk1
  rw [View.read_apply]
  show V c main_v13 _ = V c main_v13 _
  congr 1
  funext a
  apply Fin.ext
  match a with
  | ⟨0, _⟩ => show win1_3.index t 0 * 1 + 1 * 0 = 0; rw [e0]
  | ⟨1, _⟩ => show win1_3.index t 1 * 256 + 1 * l.val = l.val; rw [e1]; omega

theorem b4_eq (c : Dev nD) (t : Fin cfg1.N) : toRow (b4 V c t) = toRow (V c main_v14) := by
  obtain ⟨-, -, -, -, -, -, -, -, e0, e1, -⟩ := idx1 t
  funext l
  show iblk1 V c 4 t (ix2 0 l) = V c main_v14 (ix2 0 l)
  unfold iblk1
  rw [View.read_apply]
  show V c main_v14 _ = V c main_v14 _
  congr 1
  funext a
  apply Fin.ext
  match a with
  | ⟨0, _⟩ => show win1_4.index t 0 * 1 + 1 * 0 = 0; rw [e0]
  | ⟨1, _⟩ => show win1_4.index t 1 * 256 + 1 * l.val = l.val; rw [e1]; omega

theorem b5_eq (c : Dev nD) (t : Fin cfg1.N) : toMat (b5 V c t) = toMat (V c main_arg7) := by
  obtain ⟨-, -, -, -, -, -, -, -, -, -, e0, e1, -⟩ := idx1 t
  funext k j
  show iblk1 V c 5 t (ix2 k j) = V c main_arg7 (ix2 k j)
  unfold iblk1
  rw [View.read_apply]
  show V c main_arg7 _ = V c main_arg7 _
  congr 1
  funext a
  apply Fin.ext
  match a with
  | ⟨0, _⟩ => show win1_5.index t 0 * 256 + 1 * k.val = k.val; rw [e0]; omega
  | ⟨1, _⟩ => show win1_5.index t 1 * 256 + 1 * j.val = j.val; rw [e1]; omega

/-- An entry of a 50000-row matrix by a natural row number: zero past the last row. -/
def rowAt (M : Mat 50000 256) (i : ℕ) (j : Fin 256) : EReal := if h : i < 50000 then M ⟨i, h⟩ j else 0

theorem rowAt_eq (M : Mat 50000 256) (i : ℕ) (j : Fin 256) (i' : Fin 50000) (j' : Fin 256) (hi : i'.val = i) (hj : j'.val = j.val) :
    rowAt M i j = M i' j' := by
  subst hi
  obtain rfl : j' = j := Fin.ext hj
  rw [rowAt, dif_pos i'.isLt]

/-- The second product over the whole array, and the body's product block at point `t`. -/
abbrev H (c : Dev nD) : Mat 50000 256 := Cert.Gin.matmul (act V c) (toMat (V c main_arg7))
abbrev P (c : Dev nD) (t : Fin cfg1.N) : Vec Ideal S5000x256 .f32 := k1_pay5 (F := Ideal) (b0 V c t) (b1 V c t) (b2 V c t) (b3 V c t) (b4 V c t) (b5 V c t)

/-- The body's product block at point `t` is rows `5000·t … 5000·t + 4999` of the second product. -/
theorem blk_prod (c : Dev nD) (t : Fin cfg1.N) (r : Fin 5000) (j : Fin 256) :
    toMat (P V c t) r j = rowAt (H V c) (5000 * t.val + r.val) j := by
  have hb : 5000 * t.val + r.val < 50000 := by have := tlt t; have := r.isLt; omega
  rw [rowAt, dif_pos hb]
  show toMat (k1_pay5 (F := Ideal) (b0 V c t) (b1 V c t) (b2 V c t) (b3 V c t) (b4 V c t) (b5 V c t)) r j = _
  rw [pay5_eq, Cert.Gin.matmul_apply, b1_eq, b2_eq, b3_eq, b4_eq, b5_eq]
  show _ = ∑ l, act V c ⟨5000 * t.val + r.val, hb⟩ l * toMat (V c main_arg7) l j
  refine Finset.sum_congr rfl fun l _ => ?_
  rw [bnRelu_apply, b0_apply]
  rfl

/-- After point `n`: the product window's buffer holds the point's product block; the two statistic rows hold the column
    sums, and the column sums of squares, of the second product over the rows of the blocks `0 … n`. -/
theorem outs_inv (c : Dev nD) : ∀ (n : ℕ) (h : n < cfg1.N),
    (outsAt1 V c n h).1 = P V c ⟨n, h⟩
    ∧ (∀ j, toRow (outsAt1 V c n h).2.1 j = ∑ t ∈ Finset.range (n + 1), ∑ r : Fin 5000, rowAt (H V c) (5000 * t + r.val) j)
    ∧ (∀ j, toRow (outsAt1 V c n h).2.2 j
        = ∑ t ∈ Finset.range (n + 1), ∑ r : Fin 5000, rowAt (H V c) (5000 * t + r.val) j * rowAt (H V c) (5000 * t + r.val) j)
  | 0, h => by
    have hA : (⟨0, h⟩ : Fin cfg1.N).val % 10 = 0 := rfl
    rw [outsAt1_A V c ⟨0, h⟩ hA]
    dsimp only
    refine ⟨out_A_6 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (b0 V c ⟨0, h⟩) (b1 V c ⟨0, h⟩) (b2 V c ⟨0, h⟩) (b3 V c ⟨0, h⟩) (b4 V c ⟨0, h⟩) (b5 V c ⟨0, h⟩) ((hcond1_0 ⟨0, h⟩).mpr hA), fun j => ?_, fun j => ?_⟩
    · rw [out_A_7 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (b0 V c ⟨0, h⟩) (b1 V c ⟨0, h⟩) (b2 V c ⟨0, h⟩) (b3 V c ⟨0, h⟩) (b4 V c ⟨0, h⟩) (b5 V c ⟨0, h⟩) ((hcond1_0 ⟨0, h⟩).mpr hA),
        pay1_apply, pay6_eq, pay3_apply, pay7_apply, zero_add, Finset.sum_range_one]
      exact Finset.sum_congr rfl fun r _ => blk_prod V c ⟨0, h⟩ r j
    · rw [out_A_8 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (b0 V c ⟨0, h⟩) (b1 V c ⟨0, h⟩) (b2 V c ⟨0, h⟩) (b3 V c ⟨0, h⟩) (b4 V c ⟨0, h⟩) (b5 V c ⟨0, h⟩) ((hcond1_0 ⟨0, h⟩).mpr hA),
        pay2_apply, pay4_apply, zero_add, Finset.sum_range_one]
      exact Finset.sum_congr rfl fun r _ => by rw [blk_prod V c ⟨0, h⟩ r j]
  | n + 1, h => by
    have hN : n + 1 < 10 := lt_of_lt_of_eq h N_1
    have hB : ¬(⟨n + 1, h⟩ : Fin cfg1.N).val % 10 = 0 := by dsimp only; omega
    obtain ⟨-, ih7, ih8⟩ := outs_inv c n (Nat.lt_of_succ_lt h)
    rw [outsAt1_B V c ⟨n + 1, h⟩ hB]
    dsimp only
    refine ⟨out_B_6 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (b0 V c ⟨n + 1, h⟩) (b1 V c ⟨n + 1, h⟩) (b2 V c ⟨n + 1, h⟩) (b3 V c ⟨n + 1, h⟩) (b4 V c ⟨n + 1, h⟩) (b5 V c ⟨n + 1, h⟩) _ _ (fun hh => hB ((hcond1_0 ⟨n + 1, h⟩).mp hh)), fun j => ?_, fun j => ?_⟩
    · rw [out_B_7 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (b0 V c ⟨n + 1, h⟩) (b1 V c ⟨n + 1, h⟩) (b2 V c ⟨n + 1, h⟩) (b3 V c ⟨n + 1, h⟩) (b4 V c ⟨n + 1, h⟩) (b5 V c ⟨n + 1, h⟩) _ _ (fun hh => hB ((hcond1_0 ⟨n + 1, h⟩).mp hh)),
        pay1_apply, pay6_eq, pay7_apply]
      show toRow (outsAt1 V c n _).2.1 j + _ = _
      rw [ih7 j, Finset.sum_range_succ _ (n + 1)]
      exact congrArg _ (Finset.sum_congr rfl fun r _ => blk_prod V c ⟨n + 1, h⟩ r j)
    · rw [out_B_8 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (b0 V c ⟨n + 1, h⟩) (b1 V c ⟨n + 1, h⟩) (b2 V c ⟨n + 1, h⟩) (b3 V c ⟨n + 1, h⟩) (b4 V c ⟨n + 1, h⟩) (b5 V c ⟨n + 1, h⟩) _ _ (fun hh => hB ((hcond1_0 ⟨n + 1, h⟩).mp hh)),
        pay2_apply]
      show toRow (outsAt1 V c n _).2.2 j + _ = _
      rw [ih8 j, Finset.sum_range_succ _ (n + 1)]
      exact congrArg _ (Finset.sum_congr rfl fun r _ => by rw [blk_prod V c ⟨n + 1, h⟩ r j])

/-- The second product as the contents of its array. -/
abbrev G6 (c : Dev nD) : Vec Ideal S50000x256 .f32 := fun i => H V c ⟨(i 0).val, idx2_lt0 i⟩ ⟨(i 1).val, idx2_lt1 i⟩

/-- What point `t` writes back of the product window is block `t` of the second product. -/
theorem flushed6 (c : Dev nD) (t : Fin cfg1.N) :
    (dat1 V c).flushed 6 t = ((cfg1.win 6).blk t).view.read (Elt Ideal) (G6 V c) := by
  obtain ⟨-, -, -, -, -, -, -, -, -, -, -, -, e0, e1, -⟩ := idx1 t
  show (cfg1.win 6).cut (grid1.coords t) ((dat1 V c).after 6 t) = _
  rw [after1_6, (outs_inv V c t.val t.isLt).1]
  funext y
  have hy0 : (y 0).val < 5000 := (y 0).isLt
  have hy1 : (y 1).val < 256 := (y 1).isLt
  have hx : (cfg1.win 6).xinj (grid1.coords t) y = ix2 ⟨(y 0).val, hy0⟩ ⟨(y 1).val, hy1⟩ :=
    funext fun a => by
      match a with
      | ⟨0, _⟩ => rfl
      | ⟨1, _⟩ => rfl
  show P V c t ((cfg1.win 6).xinj (grid1.coords t) y) = _
  rw [hx, View.read_apply]
  refine (blk_prod V c t ⟨(y 0).val, hy0⟩ ⟨(y 1).val, hy1⟩).trans ?_
  show _ = G6 V c (((cfg1.win 6).blk t).view.emb y)
  exact rowAt_eq (H V c) _ _ _ _
    (by show win1_6.index t 0 * 5000 + 1 * (y 0).val = 5000 * t.val + (y 0).val; rw [e0]; omega)
    (by show win1_6.index t 1 * 256 + 1 * (y 1).val = (y 1).val; rw [e1]; omega)

/-- An index of the array is in point `t`'s block iff each coordinate is in the block's range on its axis. -/
theorem mem_blk6 (t : Fin cfg1.N) (i : S50000x256.Idx) :
    i ∈ ((cfg1.win 6).blk t).view.set ↔ ∀ a : Fin 2, win1_6.index t a * S5000x256.size a ≤ (i a).val ∧ (i a).val < win1_6.index t a * S5000x256.size a + S5000x256.size a := by
  show i ∈ ((View.whole main_v24_0).slice (win1_6.rect t)).set ↔ _
  rw [View.set_slice_whole, Rect.mem_set_unit]
  exact Iff.rfl

/-- The point whose block holds row `i₀`: `i₀ / 5000`. -/
def ptOf (i : S50000x256.Idx) : Fin cfg1.N := ⟨(i 0).val / 5000, lt_of_lt_of_eq (Nat.div_lt_of_lt_mul (idx2_lt0 i)) N_1.symm⟩

/-- The ten blocks cover the array, so it ends holding the second product. -/
theorem final6 (c : Dev nD) : (dat1 V c).arrAt 6 cfg1.N = G6 V c :=
  (dat1 V c).arrAt_eq_of_cover 6 (G6 V c) (fun t _ => flushed6 V c t) fun i => by
    have hi0 : (i 0).val < 50000 := (i 0).isLt
    have hi1 : (i 1).val < 256 := (i 1).isLt
    obtain ⟨-, -, -, -, -, -, -, -, -, -, -, -, e0, e1, -⟩ := idx1 (ptOf i)
    refine ⟨ptOf i, flush1_6 _, ?_⟩
    rw [mem_blk6]
    intro a
    match a with
    | ⟨0, _⟩ =>
      show win1_6.index (ptOf i) 0 * 5000 ≤ (i 0).val ∧ (i 0).val < win1_6.index (ptOf i) 0 * 5000 + 5000
      rw [e0]
      show (i 0).val / 5000 * 5000 ≤ (i 0).val ∧ (i 0).val < (i 0).val / 5000 * 5000 + 5000
      omega
    | ⟨1, _⟩ =>
      show win1_6.index (ptOf i) 1 * 256 ≤ (i 1).val ∧ (i 1).val < win1_6.index (ptOf i) 1 * 256 + 256
      rw [e1]
      omega

/-- What the last point leaves in the buffer of the running column sums, as the contents of its array. -/
abbrev G7 (c : Dev nD) : Vec Ideal S1x256 .f32 := (outsAt1 V c t1_9.val t1_9.isLt).2.1

/-- The one write-back of the running column sums, at the last point, writes the whole [1,256] array. -/
theorem flushed7 (c : Dev nD) (t : Fin cfg1.N) (hf : (cfg1.win 7).flush t = true) :
    (dat1 V c).flushed 7 t = ((cfg1.win 7).blk t).view.read (Elt Ideal) (G7 V c) := by
  have h9 : t.val = 9 := by have := (flush1_7 t).mp hf; have := tlt t; omega
  obtain rfl : t = t1_9 := Fin.ext h9
  obtain ⟨-, -, -, -, -, -, -, -, -, -, -, -, -, -, e0, e1, -⟩ := idx1 t1_9
  show (cfg1.win 7).cut (grid1.coords t1_9) ((dat1 V c).after 7 t1_9) = _
  rw [after1_7]
  have hz' : (fun a => win1_7.index t1_9 a * main_v24_1.ty.shape.size a) = fun _ => 0 := funext fun a => by
    match a with
    | ⟨0, _⟩ => show win1_7.index t1_9 0 * 1 = 0; rw [e0]
    | ⟨1, _⟩ => show win1_7.index t1_9 1 * 256 = 0; rw [e1]
  exact (Memref.read_access_unit_zero (Elt Ideal) main_v24_1 hz' (fun a => by rw [congrFun hz' a]; simp) (G7 V c)).symm

/-- So the array of the running column sums ends holding what the last point left. -/
theorem final7 (c : Dev nD) : (dat1 V c).arrAt 7 cfg1.N = G7 V c :=
  (dat1 V c).arrAt_eq_of_cover 7 (G7 V c) (flushed7 V c) fun i =>
    ⟨t1_9, (flush1_7 t1_9).mpr rfl, by
      obtain ⟨-, -, -, -, -, -, -, -, -, -, -, -, -, -, e0, e1, -⟩ := idx1 t1_9
      show i ∈ ((View.whole main_v24_1).slice (win1_7.rect t1_9)).set
      rw [View.set_slice_whole, Rect.mem_set_unit]
      intro a
      have h0 : (i 0 : Nat) < 1 := (i 0).isLt
      have h1 : (i 1 : Nat) < 256 := (i 1).isLt
      match a with
      | ⟨0, _⟩ => show win1_7.index t1_9 0 * 1 ≤ (i 0 : Nat) ∧ (i 0 : Nat) < win1_7.index t1_9 0 * 1 + 1; rw [e0]; omega
      | ⟨1, _⟩ => show win1_7.index t1_9 1 * 256 ≤ (i 1 : Nat) ∧ (i 1 : Nat) < win1_7.index t1_9 1 * 256 + 256; rw [e1]; omega⟩

/-- What the last point leaves in the buffer of the running column sums of squares, as the contents of its array. -/
abbrev G8 (c : Dev nD) : Vec Ideal S1x256 .f32 := (outsAt1 V c t1_9.val t1_9.isLt).2.2

/-- The one write-back of the running column sums of squares, at the last point, writes the whole [1,256] array. -/
theorem flushed8 (c : Dev nD) (t : Fin cfg1.N) (hf : (cfg1.win 8).flush t = true) :
    (dat1 V c).flushed 8 t = ((cfg1.win 8).blk t).view.read (Elt Ideal) (G8 V c) := by
  have h9 : t.val = 9 := by have := (flush1_8 t).mp hf; have := tlt t; omega
  obtain rfl : t = t1_9 := Fin.ext h9
  obtain ⟨-, -, -, -, -, -, -, -, -, -, -, -, -, -, -, -, e0, e1, -⟩ := idx1 t1_9
  show (cfg1.win 8).cut (grid1.coords t1_9) ((dat1 V c).after 8 t1_9) = _
  rw [after1_8]
  have hz' : (fun a => win1_8.index t1_9 a * main_v24_2.ty.shape.size a) = fun _ => 0 := funext fun a => by
    match a with
    | ⟨0, _⟩ => show win1_8.index t1_9 0 * 1 = 0; rw [e0]
    | ⟨1, _⟩ => show win1_8.index t1_9 1 * 256 = 0; rw [e1]
  exact (Memref.read_access_unit_zero (Elt Ideal) main_v24_2 hz' (fun a => by rw [congrFun hz' a]; simp) (G8 V c)).symm

/-- So the array of the running column sums of squares ends holding what the last point left. -/
theorem final8 (c : Dev nD) : (dat1 V c).arrAt 8 cfg1.N = G8 V c :=
  (dat1 V c).arrAt_eq_of_cover 8 (G8 V c) (flushed8 V c) fun i =>
    ⟨t1_9, (flush1_8 t1_9).mpr rfl, by
      obtain ⟨-, -, -, -, -, -, -, -, -, -, -, -, -, -, -, -, e0, e1, -⟩ := idx1 t1_9
      show i ∈ ((View.whole main_v24_2).slice (win1_8.rect t1_9)).set
      rw [View.set_slice_whole, Rect.mem_set_unit]
      intro a
      have h0 : (i 0 : Nat) < 1 := (i 0).isLt
      have h1 : (i 1 : Nat) < 256 := (i 1).isLt
      match a with
      | ⟨0, _⟩ => show win1_8.index t1_9 0 * 1 ≤ (i 0 : Nat) ∧ (i 0 : Nat) < win1_8.index t1_9 0 * 1 + 1; rw [e0]; omega
      | ⟨1, _⟩ => show win1_8.index t1_9 1 * 256 ≤ (i 1 : Nat) ∧ (i 1 : Nat) < win1_8.index t1_9 1 * 256 + 256; rw [e1]; omega⟩

/-- The second product array. -/
theorem h2_eq (c : Dev nD) :
    toMat ((dat1 V c).arrAt 6 cfg1.N) = matmul (act V c) (toMat (V c main_arg7)) := by
  rw [final6]
  rfl

/-- The running column sums of the second product after the last point. -/
theorem sum_eq (c : Dev nD) :
    toRow ((dat1 V c).arrAt 7 cfg1.N) = colSum (matmul (act V c) (toMat (V c main_arg7))) := by
  rw [final7]
  funext j
  show toRow (outsAt1 V c 9 t1_9.isLt).2.1 j = colSum (H V c) j
  rw [(outs_inv V c 9 t1_9.isLt).2.1 j, colSum_apply, sum_rows_blocks (fun i => H V c i j), Finset.sum_range]
  exact Finset.sum_congr rfl fun t _ => Finset.sum_congr rfl fun r _ => rowAt_eq _ _ _ _ _ rfl rfl

/-- The running column sums of squares of the second product after the last point. -/
theorem sumsq_eq (c : Dev nD) :
    toRow ((dat1 V c).arrAt 8 cfg1.N) = colSumSq (matmul (act V c) (toMat (V c main_arg7))) := by
  rw [final8]
  funext j
  show toRow (outsAt1 V c 9 t1_9.isLt).2.2 j = colSumSq (H V c) j
  rw [(outs_inv V c 9 t1_9.isLt).2.2 j, colSumSq_apply, sum_rows_blocks (fun i => H V c i j * H V c i j), Finset.sum_range]
  exact Finset.sum_congr rfl fun t _ => Finset.sum_congr rfl fun r _ =>
    congrArg₂ (· * ·) (rowAt_eq _ _ _ _ _ rfl rfl) (rowAt_eq _ _ _ _ _ rfl rfl)

end Cert.KernelIdeal.R1

end
-- ==== Proof.Region2.lean ====
/-
  The third region's output array: the second normalisation and rectifier applied to the second product, block by block.
  The region's grid has ten points; point `t` reads rows `5000 t … 5000 t + 4999` of the product and the four rows whole,
  and writes the same rows of the output. The body is pointwise, so the output array is one function of the five arrays,
  entry by entry; each point writes back that function's block, and the ten blocks cover the array.
-/
import proofs.«413239_j75531294867868_1_alg».proof.Proof.Gen.KernelIdeal.Frame
import proofs.«413239_j75531294867868_1_alg».proof.Proof.Spec
import Idealize.ShloMosaic.Lib.Pipeline.Value
import Idealize.ShloMosaic.Lib.ValueLayout

set_option maxRecDepth 16384

noncomputable section

open scoped BigOperators

namespace Cert.KernelIdeal.R2

open Idealize.ShloMosaic Idealize.ShloMosaic.TcCoe Idealize.ShloMosaic.ValueIdx Idealize.SL.Sem
open Idealize.ShloMosaic.Pipeline (Dat)
open Cert.KernelIdeal Cert.KernelIdeal.Gen Cert.Gin

variable (V : (c : Dev nD) → (b : Ref sig .tc) → Buf (Elt Ideal) ((c : Thread nD τ).loc b))

/-- The origin of a rank-2 rectangle, spelt as the constant zero. -/
theorem origin_zero : (![0, 0] : Fin 2 → Nat) = fun _ => 0 := funext fun a => by fin_cases a <;> rfl

/-- The body's arithmetic at row `p`, column `q` of a block: the block's entry less the first row's entry of that column,
    times the reciprocal square root of the second row's entry plus the epsilon word, times the third row's entry, plus the
    fourth's, floored at the zero word. -/
theorem body_at (x0 : Vec Ideal S5000x256 .f32) (x1 x2 x3 x4 : Vec Ideal S1x256 .f32) (p : Fin 5000) (q : Fin 256) :
    (k2_pay1 (F := Ideal) x0 x1 x2 x3 x4) (ix2 p q)
      = max (((x0 (ix2 p q) - x1 (ix2 0 q)) * Ideal.rsqrt (x2 (ix2 0 q) + wEps)) * x3 (ix2 0 q) + x4 (ix2 0 q)) wZero := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  rfl

/-- The output array as one function of the five arrays the region reads: entry `(r, q)` is the normalised, scaled, shifted
    and rectified entry `(r, q)` of the second product. -/
def outArr (c : Dev nD) : S50000x256.Idx → EReal := fun i =>
  bnRelu (toRow (V c main_v26)) (toRow (V c main_v30)) (toRow (V c main_v15)) (toRow (V c main_v16)) (toMat (V c main_v24_0)) (i 0) (i 1)

/-- The body's arithmetic on a block whose entry `y` is the array's entry `i` in the same column, with the four rows whole. -/
theorem body_eq_bnRelu (A : S50000x256.Idx → EReal) (mu var g b : S1x256.Idx → EReal) (x0 : Vec Ideal S5000x256 .f32)
    (y : S5000x256.Idx) (i : S50000x256.Idx) (hx : x0 y = A i) (hq : (y 1).val = (i 1).val) :
    (k2_pay1 (F := Ideal) x0 mu var g b) y = bnRelu (toRow mu) (toRow var) (toRow g) (toRow b) (toMat A) (i 0) (i 1) := by
  obtain ⟨p, q, rfl⟩ : ∃ (p : Fin 5000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q = q' := Fin.ext hq
  rw [body_at, hx]
  rfl

/-- The printed index maps over the grid: the product's and the output's block at point `t` is block `(t, 0)`, each row's block is block `(0, 0)`. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The product's block at point `t` is rows `5000 t … 5000 t + 4999` of the product array. -/
theorem product_block_apply (c : Dev nD) (t : Fin cfg2.N) (y : S5000x256.Idx) (i : S50000x256.Idx)
    (h0 : (i 0).val = 5000 * t.val + (y 0).val) (h1 : (i 1).val = (y 1).val) :
    (iblk2 V c 0 t : Vec Ideal S5000x256 .f32) y = (V c main_v24_0 : S50000x256.Idx → EReal) i := by
  obtain ⟨e0, e1, -⟩ := block_indices t
  unfold iblk2
  rw [View.read_apply]
  show V c main_v24_0 _ = V c main_v24_0 _
  congr 1
  funext a
  apply Fin.ext
  match a with
  | ⟨0, _⟩ => show win2_0.index t 0 * 5000 + 1 * (y 0).val = (i 0).val; rw [e0, h0]; omega
  | ⟨1, _⟩ => show win2_0.index t 1 * 256 + 1 * (y 1).val = (i 1).val; rw [e1, h1]; omega

/-- Each row's block at every point is the whole row: the mean row, -/
theorem mean_block_eq (c : Dev nD) (t : Fin cfg2.N) : (iblk2 V c 1 t : Vec Ideal S1x256 .f32) = (V c main_v26 : S1x256.Idx → EReal) := by
  obtain ⟨-, -, e0, e1, -⟩ := block_indices t
  funext y
  unfold iblk2
  rw [View.read_apply]
  show V c main_v26 _ = V c main_v26 _
  congr 1
  funext a
  apply Fin.ext
  match a with
  | ⟨0, _⟩ => show win2_1.index t 0 * 1 + 1 * (y 0).val = (y 0).val; rw [e0]; omega
  | ⟨1, _⟩ => show win2_1.index t 1 * 256 + 1 * (y 1).val = (y 1).val; rw [e1]; omega
/-- the variance row, -/
theorem var_block_eq (c : Dev nD) (t : Fin cfg2.N) : (iblk2 V c 2 t : Vec Ideal S1x256 .f32) = (V c main_v30 : S1x256.Idx → EReal) := by
  obtain ⟨-, -, -, -, e0, e1, -⟩ := block_indices t
  funext y
  unfold iblk2
  rw [View.read_apply]
  show V c main_v30 _ = V c main_v30 _
  congr 1
  funext a
  apply Fin.ext
  match a with
  | ⟨0, _⟩ => show win2_2.index t 0 * 1 + 1 * (y 0).val = (y 0).val; rw [e0]; omega
  | ⟨1, _⟩ => show win2_2.index t 1 * 256 + 1 * (y 1).val = (y 1).val; rw [e1]; omega
/-- the scale row, -/
theorem scale_block_eq (c : Dev nD) (t : Fin cfg2.N) : (iblk2 V c 3 t : Vec Ideal S1x256 .f32) = (V c main_v15 : S1x256.Idx → EReal) := by
  obtain ⟨-, -, -, -, -, -, e0, e1, -⟩ := block_indices t
  funext y
  unfold iblk2
  rw [View.read_apply]
  show V c main_v15 _ = V c main_v15 _
  congr 1
  funext a
  apply Fin.ext
  match a with
  | ⟨0, _⟩ => show win2_3.index t 0 * 1 + 1 * (y 0).val = (y 0).val; rw [e0]; omega
  | ⟨1, _⟩ => show win2_3.index t 1 * 256 + 1 * (y 1).val = (y 1).val; rw [e1]; omega
/-- the shift row. -/
theorem shift_block_eq (c : Dev nD) (t : Fin cfg2.N) : (iblk2 V c 4 t : Vec Ideal S1x256 .f32) = (V c main_v16 : S1x256.Idx → EReal) := by
  obtain ⟨-, -, -, -, -, -, -, -, e0, e1, -⟩ := block_indices t
  funext y
  unfold iblk2
  rw [View.read_apply]
  show V c main_v16 _ = V c main_v16 _
  congr 1
  funext a
  apply Fin.ext
  match a with
  | ⟨0, _⟩ => show win2_4.index t 0 * 1 + 1 * (y 0).val = (y 0).val; rw [e0]; omega
  | ⟨1, _⟩ => show win2_4.index t 1 * 256 + 1 * (y 1).val = (y 1).val; rw [e1]; omega

/-- What point `t` writes back is block `t` of the output function: entry `(p, q)` of the block is the body's arithmetic on
    row `5000 t + p` of the product and column `q` of the four rows. -/
theorem written_block_eq (c : Dev nD) (t : Fin cfg2.N) :
    (dat2 V c).flushed 5 t = ((cfg2.win 5).blk t).view.read (Elt Ideal) (outArr V c) := by
  show (cfg2.win 5).cut (grid2.coords t) ((dat2 V c).after 5 t) = _
  rw [after2_5]
  unfold out2_5
  rw [View.canon_unit_zero origin_zero]
  simp only [View.ld_unit_zero (S := S5000x256) origin_zero, View.ld_unit_zero (S := S1x256) origin_zero]
  rw [mean_block_eq, var_block_eq, scale_block_eq, shift_block_eq]
  obtain ⟨-, -, -, -, -, -, -, -, -, -, e0, e1⟩ := block_indices t
  funext j
  show (k2_pay1 (F := Ideal) (iblk2 V c 0 t) (V c main_v26) (V c main_v30) (V c main_v15) (V c main_v16)) j = outArr V c (((cfg2.win 5).blk t).view.emb j)
  refine body_eq_bnRelu (V c main_v24_0) (V c main_v26) (V c main_v30) (V c main_v15) (V c main_v16) (iblk2 V c 0 t) j (((cfg2.win 5).blk t).view.emb j) ?_ ?_
  · refine product_block_apply V c t j (((cfg2.win 5).blk t).view.emb j) ?_ ?_
    · show win2_5.index t 0 * 5000 + 1 * (j 0).val = 5000 * t.val + (j 0).val; rw [e0]; omega
    · show win2_5.index t 1 * 256 + 1 * (j 1).val = (j 1).val; rw [e1]; omega
  · show (j 1).val = win2_5.index t 1 * 256 + 1 * (j 1).val; rw [e1]; omega

/-- An entry of the output array is in point `t`'s block iff each coordinate is in the block's range on its axis. -/
theorem mem_out_block (t : Fin cfg2.N) (i : S50000x256.Idx) :
    i ∈ ((cfg2.win 5).blk t).view.set ↔ ∀ a : Fin 2, win2_5.index t a * S5000x256.size a ≤ (i a).val ∧ (i a).val < win2_5.index t a * S5000x256.size a + S5000x256.size a := by
  show i ∈ ((View.whole main_v31).slice (win2_5.rect t)).set ↔ _
  rw [View.set_slice_whole, Rect.mem_set_unit]
  exact Iff.rfl

/-- Every entry of the output array is written back by some point: row `r` by point `r / 5000`. -/
theorem rows_covered (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  have hN : grid2.N = 10 := N_2
  let t : Fin cfg2.N := ⟨(i 0).val / 5000, by show (i 0).val / 5000 < grid2.N; omega⟩
  obtain ⟨-, -, -, -, -, -, -, -, -, -, e0, e1⟩ := block_indices t
  have ht : t.val = (i 0).val / 5000 := rfl
  refine ⟨t, flush2_5 t, ?_⟩
  rw [mem_out_block]
  intro a
  match a with
  | ⟨0, _⟩ => show win2_5.index t (0 : Fin 2) * 5000 ≤ (i 0).val ∧ (i 0).val < win2_5.index t (0 : Fin 2) * 5000 + 5000; rw [e0, ht]; omega
  | ⟨1, _⟩ => show win2_5.index t (1 : Fin 2) * 256 ≤ (i 1).val ∧ (i 1).val < win2_5.index t (1 : Fin 2) * 256 + 256; rw [e1]; omega

/-- So the output array ends holding the output function. -/
theorem out_array_eq (c : Dev nD) : (dat2 V c).arrAt 5 cfg2.N = outArr V c :=
  (dat2 V c).arrAt_eq_of_cover 5 (outArr V c) (fun t _ => written_block_eq V c t) rows_covered

/-- The output array: every entry of the second product normalised by its column's mean and variance rows, scaled, shifted and rectified. -/
theorem out_eq (c : Dev nD) :
    toMat ((dat2 V c).arrAt 5 cfg2.N)
      = bnRelu (toRow (V c main_v26)) (toRow (V c main_v30)) (toRow (V c main_v15)) (toRow (V c main_v16)) (toMat (V c main_v24_0)) := by
  rw [out_array_eq]
  rfl

end Cert.KernelIdeal.R2

end
-- ==== Proof.HostK.lean ====
/-
  The host operations between the regions, read at the contents each region is entered with: an array a region wrote is what the next region reads, the two statistics rows are divided by the row count and combined into mean and variance, the scale and shift rows are the reshaped arguments, and the weights are the arguments themselves.
-/
import proofs.«413239_j75531294867868_1_alg».proof.Proof.Gen.KernelIdeal.Frame
import proofs.«413239_j75531294867868_1_alg».proof.Proof.Spec
import Idealize.ShloMosaic.Lib.Pipeline.Value
import Idealize.ShloMosaic.Lib.StableHlo.Run

set_option maxRecDepth 16384

noncomputable section

open scoped BigOperators

namespace Cert.KernelIdeal.HostK

open Idealize.ShloMosaic Idealize.ShloMosaic.TcCoe Idealize.ShloMosaic.ValueIdx Idealize.SL.Sem
open Idealize.ShloMosaic.Pipeline (Dat)
open Cert.KernelIdeal Cert.KernelIdeal.Gen Cert.Gin

variable (m : (ℓ : Loc nD τ sig) → Buf (Elt Ideal) ℓ) (ρ : Dev nD → PrngReg)

/-- A stretch of host operations leaves a buffer that none of them writes as it was: each operation's written
    buffer is another reference. -/
local macro "untouched_by " ops:ident : tactic => `(tactic|
  (refine StableHlo.after_of_forall_not_mem _ _ (List.forall_iff_forall_mem.mp ?_)
   simp only [$ops:ident, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## The host stretches over any contents -/

section Stretches

variable (V : Valuation τ sig (Elt Ideal))

/-- The row-count word broadcast to a row. -/
private abbrev rowN : FVec Ideal S1x256 .f32 :=
  broadcastInDim S1x256 ![] bcast_S_S1x256 (constant (F := Ideal) S_ .f32 0x47435000#32)

/-- A row over the broadcast row-count word, at a column, is that entry over the word. -/
private theorem divN_apply (x : FVec Ideal S1x256 .f32) (i : S1x256.Idx) :
    Host.divf (F := Ideal) x rowN i = Ideal.div (x i) wN := rfl

/-- A vector reshaped to one row reads, at a column, the vector there. -/
private theorem asRow_apply (x : S256.Idx → EReal) (j : Fin 256) :
    shapeCast S1x256 x shapeCasts_S256_S1x256 (ix2 0 j) = x (ix1 j) :=
  shapeCast_apply x shapeCasts_S256_S1x256 (ix2 0 j) (ix1 j)
    (by rw [Shape.rowMajor_val_one, Shape.rowMajor_val_two]; show j.val = 0 * 256 + j.val; omega)

/-- The stretch before region 1 divides the sums row by the row count. -/
private theorem ops1_mean :
    (StableHlo.after hostOps1 V (Proc.devRef .tc main_v19) : S1x256.Idx → EReal)
      = Host.divf (F := Ideal) (V (Proc.devRef .tc main_v17_1)) rowN := by
  after_results

/-- The stretch before region 1 forms the mean of squares minus the squared mean. -/
private theorem ops1_var :
    (StableHlo.after hostOps1 V (Proc.devRef .tc main_v23) : S1x256.Idx → EReal)
      = subf (Host.divf (F := Ideal) (V (Proc.devRef .tc main_v17_2)) rowN)
          (mulf (Host.divf (F := Ideal) (V (Proc.devRef .tc main_v17_1)) rowN)
            (Host.divf (F := Ideal) (V (Proc.devRef .tc main_v17_1)) rowN)) := by
  after_results

/-- The stretch before region 2 divides the sums row by the row count. -/
private theorem ops2_mean :
    (StableHlo.after hostOps2 V (Proc.devRef .tc main_v26) : S1x256.Idx → EReal)
      = Host.divf (F := Ideal) (V (Proc.devRef .tc main_v24_1)) rowN := by
  after_results

/-- The stretch before region 2 forms the mean of squares minus the squared mean. -/
private theorem ops2_var :
    (StableHlo.after hostOps2 V (Proc.devRef .tc main_v30) : S1x256.Idx → EReal)
      = subf (Host.divf (F := Ideal) (V (Proc.devRef .tc main_v24_2)) rowN)
          (mulf (Host.divf (F := Ideal) (V (Proc.devRef .tc main_v24_1)) rowN)
            (Host.divf (F := Ideal) (V (Proc.devRef .tc main_v24_1)) rowN)) := by
  after_results

/-- The stretch before region 0 reshapes the four scale and shift vectors to rows. -/
private theorem ops02_v13 :
    (StableHlo.after hostOps0_2 V (Proc.devRef .tc main_v13) : S1x256.Idx → EReal)
      = shapeCast S1x256 (V (Proc.devRef .tc main_arg5)) shapeCasts_S256_S1x256 := by
  after_results; rfl
private theorem ops02_v14 :
    (StableHlo.after hostOps0_2 V (Proc.devRef .tc main_v14) : S1x256.Idx → EReal)
      = shapeCast S1x256 (V (Proc.devRef .tc main_arg6)) shapeCasts_S256_S1x256 := by
  after_results; rfl
private theorem ops02_v15 :
    (StableHlo.after hostOps0_2 V (Proc.devRef .tc main_v15) : S1x256.Idx → EReal)
      = shapeCast S1x256 (V (Proc.devRef .tc main_arg8)) shapeCasts_S256_S1x256 := by
  after_results; rfl
private theorem ops02_v16 :
    (StableHlo.after hostOps0_2 V (Proc.devRef .tc main_v16) : S1x256.Idx → EReal)
      = shapeCast S1x256 (V (Proc.devRef .tc main_arg9)) shapeCasts_S256_S1x256 := by
  after_results; rfl

end Stretches

/-! ## The arguments before region 0's stretch -/

/-- An argument that neither of the first two stretches writes is the launch contents after them. -/
private theorem W2_arg4 (c : Dev nD) :
    W2 m ρ c (Proc.devRef .tc main_arg4) = m ((c : Thread nD τ).loc main_arg4) :=
  calc W2 m ρ c (Proc.devRef .tc main_arg4)
    _ = W1 m ρ c (Proc.devRef .tc main_arg4) := by untouched_by hostOps0_1
    _ = W0 m ρ c (Proc.devRef .tc main_arg4) := by untouched_by hostOps0
    _ = m ((c : Thread nD τ).loc main_arg4) := rfl
private theorem W2_arg5 (c : Dev nD) :
    W2 m ρ c (Proc.devRef .tc main_arg5) = m ((c : Thread nD τ).loc main_arg5) :=
  calc W2 m ρ c (Proc.devRef .tc main_arg5)
    _ = W1 m ρ c (Proc.devRef .tc main_arg5) := by untouched_by hostOps0_1
    _ = W0 m ρ c (Proc.devRef .tc main_arg5) := by untouched_by hostOps0
    _ = m ((c : Thread nD τ).loc main_arg5) := rfl
private theorem W2_arg6 (c : Dev nD) :
    W2 m ρ c (Proc.devRef .tc main_arg6) = m ((c : Thread nD τ).loc main_arg6) :=
  calc W2 m ρ c (Proc.devRef .tc main_arg6)
    _ = W1 m ρ c (Proc.devRef .tc main_arg6) := by untouched_by hostOps0_1
    _ = W0 m ρ c (Proc.devRef .tc main_arg6) := by untouched_by hostOps0
    _ = m ((c : Thread nD τ).loc main_arg6) := rfl
private theorem W2_arg7 (c : Dev nD) :
    W2 m ρ c (Proc.devRef .tc main_arg7) = m ((c : Thread nD τ).loc main_arg7) :=
  calc W2 m ρ c (Proc.devRef .tc main_arg7)
    _ = W1 m ρ c (Proc.devRef .tc main_arg7) := by untouched_by hostOps0_1
    _ = W0 m ρ c (Proc.devRef .tc main_arg7) := by untouched_by hostOps0
    _ = m ((c : Thread nD τ).loc main_arg7) := rfl
private theorem W2_arg8 (c : Dev nD) :
    W2 m ρ c (Proc.devRef .tc main_arg8) = m ((c : Thread nD τ).loc main_arg8) :=
  calc W2 m ρ c (Proc.devRef .tc main_arg8)
    _ = W1 m ρ c (Proc.devRef .tc main_arg8) := by untouched_by hostOps0_1
    _ = W0 m ρ c (Proc.devRef .tc main_arg8) := by untouched_by hostOps0
    _ = m ((c : Thread nD τ).loc main_arg8) := rfl
private theorem W2_arg9 (c : Dev nD) :
    W2 m ρ c (Proc.devRef .tc main_arg9) = m ((c : Thread nD τ).loc main_arg9) :=
  calc W2 m ρ c (Proc.devRef .tc main_arg9)
    _ = W1 m ρ c (Proc.devRef .tc main_arg9) := by untouched_by hostOps0_1
    _ = W0 m ρ c (Proc.devRef .tc main_arg9) := by untouched_by hostOps0
    _ = m ((c : Thread nD τ).loc main_arg9) := rfl

/-! ## Region 0's entry -/

/-- The first weight matrix is the argument. -/
theorem V3_W1 (c : Dev nD) : toMat (V3 m ρ c main_arg4) = toMat (m ((c.tc : Thread nD τ).loc main_arg4)) := by
  have e : W3 m ρ c (Proc.devRef .tc main_arg4) = m ((c : Thread nD τ).loc main_arg4) :=
    calc W3 m ρ c (Proc.devRef .tc main_arg4)
      _ = W2 m ρ c (Proc.devRef .tc main_arg4) := by untouched_by hostOps0_2
      _ = m ((c : Thread nD τ).loc main_arg4) := W2_arg4 m ρ c
  exact congrArg toMat e

/-! ## Region 1's entry -/

/-- The first product as region 1 reads it is what region 0 left. -/
theorem V5_h1 (c : Dev nD) : toMat (V5 m ρ c main_v17_0) = toMat ((dat0 (V3 m ρ) c).arrAt 2 cfg0.N) := by
  have e : W5 m ρ c (Proc.devRef .tc main_v17_0) = (dat0 (V3 m ρ) c).arrAt 2 cfg0.N :=
    calc W5 m ρ c (Proc.devRef .tc main_v17_0)
      _ = W4 m ρ c (Proc.devRef .tc main_v17_0) := by untouched_by hostOps1
      _ = (dat0 (V3 m ρ) c).arrAt 2 cfg0.N := W4_arr m ρ c 2
  exact congrArg toMat e
/-- The mean row: region 0's column sums over the row-count word. -/
theorem V5_mean (c : Dev nD) :
    toRow (V5 m ρ c main_v19) = fun j => Ideal.div (toRow ((dat0 (V3 m ρ) c).arrAt 3 cfg0.N) j) wN := by
  have h3 : W4 m ρ c (Proc.devRef .tc main_v17_1) = (dat0 (V3 m ρ) c).arrAt 3 cfg0.N := W4_arr m ρ c 3
  funext j
  refine (congrFun (ops1_mean (W4 m ρ c)) (ix2 0 j)).trans ?_
  refine (divN_apply _ _).trans ?_
  exact congrArg (fun x : S1x256.Idx → EReal => Ideal.div (x (ix2 0 j)) wN) h3
/-- The variance row: region 0's column sums of squares over the row-count word, minus the squared mean. -/
theorem V5_var (c : Dev nD) :
    toRow (V5 m ρ c main_v23) = fun j => Ideal.div (toRow ((dat0 (V3 m ρ) c).arrAt 4 cfg0.N) j) wN
      - Ideal.div (toRow ((dat0 (V3 m ρ) c).arrAt 3 cfg0.N) j) wN * Ideal.div (toRow ((dat0 (V3 m ρ) c).arrAt 3 cfg0.N) j) wN := by
  have h3 : W4 m ρ c (Proc.devRef .tc main_v17_1) = (dat0 (V3 m ρ) c).arrAt 3 cfg0.N := W4_arr m ρ c 3
  have h4 : W4 m ρ c (Proc.devRef .tc main_v17_2) = (dat0 (V3 m ρ) c).arrAt 4 cfg0.N := W4_arr m ρ c 4
  funext j
  refine (congrFun (ops1_var (W4 m ρ c)) (ix2 0 j)).trans ?_
  exact congrArg₂ (fun x y : S1x256.Idx → EReal =>
    Ideal.div (y (ix2 0 j)) wN - Ideal.div (x (ix2 0 j)) wN * Ideal.div (x (ix2 0 j)) wN) h3 h4
/-- The first scale row is the argument, reshaped. -/
theorem V5_g1 (c : Dev nD) : toRow (V5 m ρ c main_v13) = toVec (m ((c.tc : Thread nD τ).loc main_arg5)) := by
  have e : (W5 m ρ c (Proc.devRef .tc main_v13) : S1x256.Idx → EReal)
      = shapeCast S1x256 (m ((c : Thread nD τ).loc main_arg5)) shapeCasts_S256_S1x256 :=
    calc W5 m ρ c (Proc.devRef .tc main_v13)
      _ = W4 m ρ c (Proc.devRef .tc main_v13) := by untouched_by hostOps1
      _ = W3 m ρ c (Proc.devRef .tc main_v13) := W4_of_ne m ρ c main_v13 (by decide)
      _ = shapeCast S1x256 (W2 m ρ c (Proc.devRef .tc main_arg5)) shapeCasts_S256_S1x256 := ops02_v13 (W2 m ρ c)
      _ = shapeCast S1x256 (m ((c : Thread nD τ).loc main_arg5)) shapeCasts_S256_S1x256 :=
          congrArg (fun x : S256.Idx → EReal => shapeCast S1x256 x shapeCasts_S256_S1x256) (W2_arg5 m ρ c)
  funext j
  exact (congrFun e (ix2 0 j)).trans (asRow_apply _ j)
/-- The first shift row is the argument, reshaped. -/
theorem V5_b1 (c : Dev nD) : toRow (V5 m ρ c main_v14) = toVec (m ((c.tc : Thread nD τ).loc main_arg6)) := by
  have e : (W5 m ρ c (Proc.devRef .tc main_v14) : S1x256.Idx → EReal)
      = shapeCast S1x256 (m ((c : Thread nD τ).loc main_arg6)) shapeCasts_S256_S1x256 :=
    calc W5 m ρ c (Proc.devRef .tc main_v14)
      _ = W4 m ρ c (Proc.devRef .tc main_v14) := by untouched_by hostOps1
      _ = W3 m ρ c (Proc.devRef .tc main_v14) := W4_of_ne m ρ c main_v14 (by decide)
      _ = shapeCast S1x256 (W2 m ρ c (Proc.devRef .tc main_arg6)) shapeCasts_S256_S1x256 := ops02_v14 (W2 m ρ c)
      _ = shapeCast S1x256 (m ((c : Thread nD τ).loc main_arg6)) shapeCasts_S256_S1x256 :=
          congrArg (fun x : S256.Idx → EReal => shapeCast S1x256 x shapeCasts_S256_S1x256) (W2_arg6 m ρ c)
  funext j
  exact (congrFun e (ix2 0 j)).trans (asRow_apply _ j)
/-- The second weight matrix is the argument. -/
theorem V5_W2 (c : Dev nD) : toMat (V5 m ρ c main_arg7) = toMat (m ((c.tc : Thread nD τ).loc main_arg7)) := by
  have e : W5 m ρ c (Proc.devRef .tc main_arg7) = m ((c : Thread nD τ).loc main_arg7) :=
    calc W5 m ρ c (Proc.devRef .tc main_arg7)
      _ = W4 m ρ c (Proc.devRef .tc main_arg7) := by untouched_by hostOps1
      _ = W3 m ρ c (Proc.devRef .tc main_arg7) := W4_of_ne m ρ c main_arg7 (by decide)
      _ = W2 m ρ c (Proc.devRef .tc main_arg7) := by untouched_by hostOps0_2
      _ = m ((c : Thread nD τ).loc main_arg7) := W2_arg7 m ρ c
  exact congrArg toMat e

/-! ## Region 2's entry -/

/-- The second product as region 2 reads it is what region 1 left. -/
theorem V7_h2 (c : Dev nD) : toMat (V7 m ρ c main_v24_0) = toMat ((dat1 (V5 m ρ) c).arrAt 6 cfg1.N) := by
  have e : W7 m ρ c (Proc.devRef .tc main_v24_0) = (dat1 (V5 m ρ) c).arrAt 6 cfg1.N :=
    calc W7 m ρ c (Proc.devRef .tc main_v24_0)
      _ = W6 m ρ c (Proc.devRef .tc main_v24_0) := by untouched_by hostOps2
      _ = (dat1 (V5 m ρ) c).arrAt 6 cfg1.N := W6_arr m ρ c 6
  exact congrArg toMat e
/-- The second mean row. -/
theorem V7_mean (c : Dev nD) :
    toRow (V7 m ρ c main_v26) = fun j => Ideal.div (toRow ((dat1 (V5 m ρ) c).arrAt 7 cfg1.N) j) wN := by
  have h7 : W6 m ρ c (Proc.devRef .tc main_v24_1) = (dat1 (V5 m ρ) c).arrAt 7 cfg1.N := W6_arr m ρ c 7
  funext j
  refine (congrFun (ops2_mean (W6 m ρ c)) (ix2 0 j)).trans ?_
  refine (divN_apply _ _).trans ?_
  exact congrArg (fun x : S1x256.Idx → EReal => Ideal.div (x (ix2 0 j)) wN) h7
/-- The second variance row. -/
theorem V7_var (c : Dev nD) :
    toRow (V7 m ρ c main_v30) = fun j => Ideal.div (toRow ((dat1 (V5 m ρ) c).arrAt 8 cfg1.N) j) wN
      - Ideal.div (toRow ((dat1 (V5 m ρ) c).arrAt 7 cfg1.N) j) wN * Ideal.div (toRow ((dat1 (V5 m ρ) c).arrAt 7 cfg1.N) j) wN := by
  have h7 : W6 m ρ c (Proc.devRef .tc main_v24_1) = (dat1 (V5 m ρ) c).arrAt 7 cfg1.N := W6_arr m ρ c 7
  have h8 : W6 m ρ c (Proc.devRef .tc main_v24_2) = (dat1 (V5 m ρ) c).arrAt 8 cfg1.N := W6_arr m ρ c 8
  funext j
  refine (congrFun (ops2_var (W6 m ρ c)) (ix2 0 j)).trans ?_
  exact congrArg₂ (fun x y : S1x256.Idx → EReal =>
    Ideal.div (y (ix2 0 j)) wN - Ideal.div (x (ix2 0 j)) wN * Ideal.div (x (ix2 0 j)) wN) h7 h8
/-- The second scale row is the argument, reshaped. -/
theorem V7_g2 (c : Dev nD) : toRow (V7 m ρ c main_v15) = toVec (m ((c.tc : Thread nD τ).loc main_arg8)) := by
  have e : (W7 m ρ c (Proc.devRef .tc main_v15) : S1x256.Idx → EReal)
      = shapeCast S1x256 (m ((c : Thread nD τ).loc main_arg8)) shapeCasts_S256_S1x256 :=
    calc W7 m ρ c (Proc.devRef .tc main_v15)
      _ = W6 m ρ c (Proc.devRef .tc main_v15) := by untouched_by hostOps2
      _ = W5 m ρ c (Proc.devRef .tc main_v15) := W6_of_ne m ρ c main_v15 (by decide)
      _ = W4 m ρ c (Proc.devRef .tc main_v15) := by untouched_by hostOps1
      _ = W3 m ρ c (Proc.devRef .tc main_v15) := W4_of_ne m ρ c main_v15 (by decide)
      _ = shapeCast S1x256 (W2 m ρ c (Proc.devRef .tc main_arg8)) shapeCasts_S256_S1x256 := ops02_v15 (W2 m ρ c)
      _ = shapeCast S1x256 (m ((c : Thread nD τ).loc main_arg8)) shapeCasts_S256_S1x256 :=
          congrArg (fun x : S256.Idx → EReal => shapeCast S1x256 x shapeCasts_S256_S1x256) (W2_arg8 m ρ c)
  funext j
  exact (congrFun e (ix2 0 j)).trans (asRow_apply _ j)
/-- The second shift row is the argument, reshaped. -/
theorem V7_b2 (c : Dev nD) : toRow (V7 m ρ c main_v16) = toVec (m ((c.tc : Thread nD τ).loc main_arg9)) := by
  have e : (W7 m ρ c (Proc.devRef .tc main_v16) : S1x256.Idx → EReal)
      = shapeCast S1x256 (m ((c : Thread nD τ).loc main_arg9)) shapeCasts_S256_S1x256 :=
    calc W7 m ρ c (Proc.devRef .tc main_v16)
      _ = W6 m ρ c (Proc.devRef .tc main_v16) := by untouched_by hostOps2
      _ = W5 m ρ c (Proc.devRef .tc main_v16) := W6_of_ne m ρ c main_v16 (by decide)
      _ = W4 m ρ c (Proc.devRef .tc main_v16) := by untouched_by hostOps1
      _ = W3 m ρ c (Proc.devRef .tc main_v16) := W4_of_ne m ρ c main_v16 (by decide)
      _ = shapeCast S1x256 (W2 m ρ c (Proc.devRef .tc main_arg9)) shapeCasts_S256_S1x256 := ops02_v16 (W2 m ρ c)
      _ = shapeCast S1x256 (m ((c : Thread nD τ).loc main_arg9)) shapeCasts_S256_S1x256 :=
          congrArg (fun x : S256.Idx → EReal => shapeCast S1x256 x shapeCasts_S256_S1x256) (W2_arg9 m ρ c)
  funext j
  exact (congrFun e (ix2 0 j)).trans (asRow_apply _ j)

/-! ## The result -/

/-- The result array at the last boundary is what region 2 left in its output window. -/
theorem W8_out (c : Dev nD) : toMat (W8 m ρ c (Proc.devRef .tc main_v31)) = toMat ((dat2 (V7 m ρ) c).arrAt 5 cfg2.N) :=
  congrArg toMat (W8_arr m ρ c 5)

end Cert.KernelIdeal.HostK

end
-- ==== Proof.H0Bridge.lean ====
/-
  The aggregated node features. Both programs gather a source row of the feature table per edge and add it into the edge's destination row, then add (1 + eps) times the table. One program masks a gathered row with a fill value when its (wrapped) source id falls outside the table; for source ids that are valid row indices the mask is true everywhere, so the two programs' aggregated features are one array.
-/
import proofs.«413239_j75531294867868_1_alg».proof.Proof.Gen.KernelIdeal.Frame
import proofs.«413239_j75531294867868_1_alg».proof.Proof.Gen.ReferenceIdeal.Read
import proofs.«413239_j75531294867868_1_alg».proof.Proof.Spec
import Idealize.ShloMosaic.Lib.Pipeline.Value
import Idealize.ShloMosaic.Lib.StableHlo.Run
import Idealize.ShloMosaic.Lib.StableHlo.Predicate

set_option maxRecDepth 16384

noncomputable section

open scoped BigOperators

namespace Cert.H0

open Idealize.ShloMosaic Idealize.ShloMosaic.TcCoe Idealize.ShloMosaic.ValueIdx Idealize.SL.Sem
open Idealize.ShloMosaic.Pipeline (Dat)
open Cert.Gin

/-- A source id that is a valid row index, wrapped from the end when negative, lies inside the table: it passes both bound tests. -/
private theorem wrap_mask (s : BitVec 32) (h1 : -50000 ≤ s.toInt) (h2 : s.toInt < 50000) :
    IntOp.andi (IntOp.cmpi .sge (Scalar.select (IntOp.cmpi .slt s 0#32) (IntOp.addi s 50000#32) s) 0#32)
      (IntOp.cmpi .sle (Scalar.select (IntOp.cmpi .slt s 0#32) (IntOp.addi s 50000#32) s) 49999#32) = 1#1 := by
  have hw : 0 ≤ (Scalar.select (IntOp.cmpi .slt s 0#32) (IntOp.addi s 50000#32) s).toInt
      ∧ (Scalar.select (IntOp.cmpi .slt s 0#32) (IntOp.addi s 50000#32) s).toInt ≤ 49999 := by
    have h0 : (0#32 : BitVec 32).toInt = 0 := by decide
    have h5 : (50000#32 : BitVec 32).toInt = 50000 := by decide
    by_cases hs : s.toInt < 0
    · have e : IntOp.cmpi .slt s 0#32 = 1#1 := by
        simp only [IntOp.cmpi, BitVec.slt, h0, hs, decide_true, BitVec.ofBool_true]; rfl
      rw [e, select_one]
      show 0 ≤ (s + 50000#32).toInt ∧ (s + 50000#32).toInt ≤ 49999
      rw [BitVec.toInt_add, h5]
      have : (s.toInt + 50000).bmod (2 ^ 32) = s.toInt + 50000 := by
        apply Int.bmod_eq_of_le <;> omega
      omega
    · have e : IntOp.cmpi .slt s 0#32 = 0#1 := by
        simp only [IntOp.cmpi, BitVec.slt, h0, hs, decide_false, BitVec.ofBool_false]; rfl
      rw [e, select_zero]
      omega
  generalize Scalar.select (IntOp.cmpi .slt s 0#32) (IntOp.addi s 50000#32) s = w at hw
  have h0 : (0#32 : BitVec 32).toInt = 0 := by decide
  have h9 : (49999#32 : BitVec 32).toInt = 49999 := by decide
  simp only [IntOp.andi, IntOp.cmpi, BitVec.sle, h0, h9, hw.1, hw.2, decide_true, BitVec.ofBool_true]
  decide

/-- A conjunction of bits that are all set, from a set bit, is set. -/
private theorem fold_andi_one {ι : Type} (S : Finset ι) (f : ι → BitVec 1) (hf : ∀ i, f i = 1#1) :
    S.fold IntOp.andi 1#1 f = 1#1 := by
  induction S using Finset.cons_induction with
  | empty => rfl
  | cons a S ha ih => rw [Finset.fold_cons, ih, hf]; rfl

/-- Reducing a mask that is set everywhere by conjunction, from a set bit, gives a mask set everywhere. -/
private theorem reduce_and_all_one {s t u : Shape} {axes : List (Fin s.rank)} (x : IVec s 1) (init : IVec u 1)
    (h : s.ReducesTo axes t) (hu : 0 < u.numel) (hx : ∀ i, x i = 1#1) (hi : ∀ i, init i = 1#1) (j : t.Idx) :
    Host.reduce IntOp.andi x init h hu j = 1#1 := by
  rw [Host.reduce_eq_fold, hi]
  exact fold_andi_one _ _ hx

/-- Choosing by a mask that is set everywhere keeps the first array. -/
private theorem select_all_one {s : Shape} {α : Type} (c : IVec s 1) (a b : s.Idx → α) (h : ∀ i, c i = 1#1) :
    select c a b = a := by
  funext i; rw [select_apply, h, select_one]

section Kernel
open Cert.KernelIdeal Cert.KernelIdeal.Gen Idealize.ShloMosaic.StableHlo

/-- The source ids after the first stretch of host operations: row 0 of the edge array. -/
private theorem after0_v1 (V : Valuation τ sig (Elt Ideal)) :
    (after (hostOps0 (F := Ideal)) V (Proc.devRef .tc main_v1) : S800000.Idx → BitVec 32)
      = Cert.ReferenceIdeal.Read.val_main_v1 (F := Ideal) (V (Proc.devRef .tc main_arg1)) := by
  simp only [hostOps0]; after_results_simp <;> rfl

/-- The destination ids after the first stretch: row 1 of the edge array. -/
private theorem after0_v3 (V : Valuation τ sig (Elt Ideal)) :
    (after (hostOps0 (F := Ideal)) V (Proc.devRef .tc main_v3) : S800000.Idx → BitVec 32)
      = Cert.ReferenceIdeal.Read.val_main_v3 (F := Ideal) (V (Proc.devRef .tc main_arg1)) := by
  simp only [hostOps0]; after_results_simp <;> rfl

/-- The first stretch writes neither the feature table nor eps. -/
private theorem after0_arg0 (V : Valuation τ sig (Elt Ideal)) :
    after (hostOps0 (F := Ideal)) V (Proc.devRef .tc main_arg0) = V (Proc.devRef .tc main_arg0) := by
  simp only [hostOps0]; after_results_simp <;> rfl

private theorem after0_arg3 (V : Valuation τ sig (Elt Ideal)) :
    after (hostOps0 (F := Ideal)) V (Proc.devRef .tc main_arg3) = V (Proc.devRef .tc main_arg3) := by
  simp only [hostOps0]; after_results_simp <;> rfl

/-- Contents moved to a buffer's own type and back are unchanged. -/
private theorem ofBuf_toBuf {T : BufTy} (x : TRef sig T) (v : T.Contents (Elt Ideal)) : x.ofBuf (x.toBuf v) = v := by
  obtain ⟨r, rfl, _, _⟩ := x; rfl

/-- Row 0 of the edge array, read as the reference reads it, is in range where the edge array's row 0 is. -/
private theorem v1_in_range (x1 : Cert.ReferenceIdeal.S2x800000.Idx → BitVec 32) (hsrc : SrcInRange x1)
    (j : Cert.ReferenceIdeal.S800000.Idx) :
    -50000 ≤ (Cert.ReferenceIdeal.Read.val_main_v1 (F := Ideal) x1 j).toInt
      ∧ (Cert.ReferenceIdeal.Read.val_main_v1 (F := Ideal) x1 j).toInt < 50000 := by
  rw [Cert.ReferenceIdeal.Read.val_main_v1_apply, Cert.ReferenceIdeal.Read.val_main_v0_apply]
  have e : Cert.ReferenceIdeal.Read.idx_main_v0 (Cert.ReferenceIdeal.Read.idx_main_v1 j)
      = ix2 (0 : Fin 2) (⟨(j 0).val % 800000, Nat.mod_lt _ (by decide)⟩ : Fin 800000) := by
    funext a; match a with
    | ⟨0, _⟩ => rfl
    | ⟨1, _⟩ => rfl
  rw [e]; exact hsrc _

/-- The wrapped source ids as a column: a negative id counts from the end of the table. -/
private def wrapCol (v1 : S800000.Idx → BitVec 32) : S800000x1.Idx → BitVec 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The take's bound test on the wrapped ids, edge by edge. -/
private def inTable (v1 : S800000.Idx → BitVec 32) : S800000x1.Idx → BitVec 1 :=
  andi (cmpi .sge (wrapCol v1) (broadcastInDim S800000x1 ![] bcast_S_S800000x1 (constantI S_ 32 0#32)))
    (cmpi .sle (wrapCol v1) (broadcastInDim S800000x1 ![0, 1] bcast_S1x1_S800000x1_0_1
      (broadcastInDim S1x1 ![1] bcast_S1_S1x1_1 (constantI S1 32 49999#32))))

/-- The take's mask: the bound test reduced over the unit axis and laid over the 128 columns. -/
private def takeMask (v1 : S800000.Idx → BitVec 32) : S800000x128.Idx → BitVec 1 :=
  broadcastInDim S800000x128 ![0] bcast_S800000_S800000x128_0
    (Host.reduce IntOp.andi (inTable v1) (constantI S_ 1 1#1) reducesTo_S800000x1_S800000_d1 h_S_)

/-- Under valid source ids every wrapped id passes the bound test. -/
private theorem inTable_one (v1 : S800000.Idx → BitVec 32) (hv : ∀ j, -50000 ≤ (v1 j).toInt ∧ (v1 j).toInt < 50000)
    (e : S800000x1.Idx) : inTable v1 e = 1#1 := by
  simp only [inTable, wrapCol, andi, cmpi, select, addi, broadcastInDim, constantI]
  exact wrap_mask _ (hv _).1 (hv _).2

/-- Under valid source ids the take's mask is set everywhere. -/
private theorem takeMask_one (v1 : S800000.Idx → BitVec 32) (hv : ∀ j, -50000 ≤ (v1 j).toInt ∧ (v1 j).toInt < 50000)
    (i : S800000x128.Idx) : takeMask v1 i = 1#1 := by
  unfold takeMask
  rw [show ∀ (u : S800000.Idx → BitVec 1) (i : S800000x128.Idx),
      broadcastInDim S800000x128 ![0] bcast_S800000_S800000x128_0 u i = u _ from fun _ _ => rfl]
  exact reduce_and_all_one _ _ _ _ (inTable_one v1 hv) (fun _ => rfl) _

/-- The second stretch of host operations (the take) read at its result: the gather, masked by the bound test. -/
private theorem after1_v4_raw (V : Valuation τ sig (Elt Ideal)) :
    (after (hostOps0_1 (F := Ideal)) V (Proc.devRef .tc main_v4) : S800000x128.Idx → EReal)
      = select (takeMask (V (Proc.devRef .tc main_v1)))
          (Host.gather gather_S50000x128_S800000x1_S800000x128_1_0_n_n_0_1_1128 (V (Proc.devRef .tc main_arg0) : S50000x128.Idx → EReal)
            (wrapCol (V (Proc.devRef .tc main_v1))))
          (broadcastInDim S800000x128 ![] bcast_S_S800000x128 (constant (F := Ideal) S_ .f32 0x7FC00000#32)) := by
  simp only [hostOps0_1]
  after_results_simp
  simp only [ofBuf_toBuf]
  rw [show ∀ u : (⟨S800000, .i32⟩ : BufTy).Contents (Elt Ideal), (TRef.of (T := ⟨S800000, .i32⟩) main_v1).ofBuf u = u from fun _ => rfl,
    show ∀ u : (⟨S50000x128, .f32⟩ : BufTy).Contents (Elt Ideal), (TRef.of (T := ⟨S50000x128, .f32⟩) main_arg0).ofBuf u = u from fun _ => rfl,
    show ∀ u : (⟨S800000x128, .f32⟩ : BufTy).Contents (Elt Ideal), (TRef.of (T := ⟨S800000x128, .f32⟩) main_v4).toBuf u = u from fun _ => rfl]
  rfl

/-- The second stretch (the take): under valid source ids its mask is set everywhere, so its result is the gather alone. -/
private theorem after1_v4 (V : Valuation τ sig (Elt Ideal)) (x1 : Cert.ReferenceIdeal.S2x800000.Idx → BitVec 32)
    (hv1 : (V (Proc.devRef .tc main_v1) : S800000.Idx → BitVec 32) = Cert.ReferenceIdeal.Read.val_main_v1 (F := Ideal) x1)
    (hsrc : SrcInRange x1) :
    (after (hostOps0_1 (F := Ideal)) V (Proc.devRef .tc main_v4) : S800000x128.Idx → EReal)
      = Cert.ReferenceIdeal.Read.val_main_v10 (F := Ideal) (V (Proc.devRef .tc main_arg0)) x1 := by
  rw [after1_v4_raw, hv1, select_all_one _ _ _ (takeMask_one _ (v1_in_range x1 hsrc))]
  rfl

/-- The second stretch writes none of the destination ids, the feature table, eps. -/
private theorem after1_v3 (V : Valuation τ sig (Elt Ideal)) :
    after (hostOps0_1 (F := Ideal)) V (Proc.devRef .tc main_v3) = V (Proc.devRef .tc main_v3) := by
  simp only [hostOps0_1]; after_results_simp <;> rfl

private theorem after1_arg0 (V : Valuation τ sig (Elt Ideal)) :
    after (hostOps0_1 (F := Ideal)) V (Proc.devRef .tc main_arg0) = V (Proc.devRef .tc main_arg0) := by
  simp only [hostOps0_1]; after_results_simp <;> rfl

private theorem after1_arg3 (V : Valuation τ sig (Elt Ideal)) :
    after (hostOps0_1 (F := Ideal)) V (Proc.devRef .tc main_arg3) = V (Proc.devRef .tc main_arg3) := by
  simp only [hostOps0_1]; after_results_simp <;> rfl

/-- The third stretch: the scatter-add of the gathered rows into zeros by destination id, plus (1 + eps) times the table. -/
private theorem after2_v12 (V : Valuation τ sig (Elt Ideal)) (x0 : Cert.ReferenceIdeal.S50000x128.Idx → EReal)
    (x1 : Cert.ReferenceIdeal.S2x800000.Idx → BitVec 32) (x3 : Cert.ReferenceIdeal.S1.Idx → EReal)
    (h0 : (V (Proc.devRef .tc main_arg0) : S50000x128.Idx → EReal) = x0)
    (h3 : (V (Proc.devRef .tc main_arg3) : S1.Idx → EReal) = x3)
    (hv3 : (V (Proc.devRef .tc main_v3) : S800000.Idx → BitVec 32) = Cert.ReferenceIdeal.Read.val_main_v3 (F := Ideal) x1)
    (hv4 : (V (Proc.devRef .tc main_v4) : S800000x128.Idx → EReal) = Cert.ReferenceIdeal.Read.val_main_v10 (F := Ideal) x0 x1) :
    (after (hostOps0_2 (F := Ideal)) V (Proc.devRef .tc main_v12) : S50000x128.Idx → EReal)
      = Cert.ReferenceIdeal.Read.val_main_v18 (F := Ideal) x0 x1 x3 := by
  simp only [hostOps0_2]
  after_results_simp
  rw [h0, h3, hv3, hv4]
  rfl

end Kernel

/-- Under valid source ids, the aggregated features region 0 is entered with are the reference's stage `%18` of the same arguments. -/
theorem V3_h0 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hsrc : SrcInRange (m ((c.tc : Thread Cert.KernelIdeal.nD Cert.KernelIdeal.τ).loc Cert.KernelIdeal.main_arg1))) :
    toMat (Cert.KernelIdeal.Gen.V3 m ρ c Cert.KernelIdeal.main_v12)
      = toMat (Cert.ReferenceIdeal.Read.val_main_v18 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3))) := by
  have a0 : Cert.KernelIdeal.Gen.W2 m ρ c (Proc.devRef .tc Cert.KernelIdeal.main_arg0)
      = m ((c.tc : Thread Cert.KernelIdeal.nD Cert.KernelIdeal.τ).loc Cert.KernelIdeal.main_arg0) :=
    (after1_arg0 _).trans (after0_arg0 _)
  have a3 : Cert.KernelIdeal.Gen.W2 m ρ c (Proc.devRef .tc Cert.KernelIdeal.main_arg3)
      = m ((c.tc : Thread Cert.KernelIdeal.nD Cert.KernelIdeal.τ).loc Cert.KernelIdeal.main_arg3) :=
    (after1_arg3 _).trans (after0_arg3 _)
  have e3 : Cert.KernelIdeal.Gen.W2 m ρ c (Proc.devRef .tc Cert.KernelIdeal.main_v3)
      = Cert.ReferenceIdeal.Read.val_main_v3 (F := Ideal)
          (m ((c.tc : Thread Cert.KernelIdeal.nD Cert.KernelIdeal.τ).loc Cert.KernelIdeal.main_arg1)) :=
    (after1_v3 _).trans (after0_v3 _)
  have e4 : Cert.KernelIdeal.Gen.W2 m ρ c (Proc.devRef .tc Cert.KernelIdeal.main_v4)
      = Cert.ReferenceIdeal.Read.val_main_v10 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
    (after1_v4 _ _ (after0_v1 _) hsrc).trans (congrArg (fun x => Cert.ReferenceIdeal.Read.val_main_v10 (F := Ideal) x _) (after0_arg0 _))
  exact congrArg toMat (after2_v12 (Cert.KernelIdeal.Gen.W2 m ρ c) _ _ _ a0 a3 e3 e4)

end Cert.H0

end
-- ==== Proof.KernelValue.lean ====
/-
  The kernel program's result array as one function of the arguments: the three regions' arrays and the host operations
  between them, chained. The third region normalises and rectifies the second product with the mean and variance rows the
  host computes from the second region's running sums; the second region does the same to the first product and multiplies
  by the second weights; the first region multiplies the aggregated features by the first weights. Read together this is the
  layer at the one-pass variance, applied to the aggregated features.
-/
import proofs.«413239_j75531294867868_1_alg».proof.Proof.Region0
import proofs.«413239_j75531294867868_1_alg».proof.Proof.Region1
import proofs.«413239_j75531294867868_1_alg».proof.Proof.Region2
import proofs.«413239_j75531294867868_1_alg».proof.Proof.HostK
import proofs.«413239_j75531294867868_1_alg».proof.Proof.H0Bridge

set_option maxRecDepth 16384

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen Cert.Gin

variable (m : (ℓ : Loc nD τ sig) → Buf (Elt Ideal) ℓ) (ρ : Dev nD → PrngReg)

/-- Region 1's rows as the host computes them from region 0's running sums are the mean and the one-pass variance of the first product. -/
theorem stats1 (c : Dev nD) :
    toRow (V5 m ρ c main_v19) = mean (matmul (toMat (V3 m ρ c main_v12)) (toMat (V3 m ρ c main_arg4)))
    ∧ toRow (V5 m ρ c main_v23) = varK (matmul (toMat (V3 m ρ c main_v12)) (toMat (V3 m ρ c main_arg4))) := by
  constructor
  · rw [HostK.V5_mean, R0.sum_eq]; rfl
  · rw [HostK.V5_var, R0.sum_eq, R0.sumsq_eq]; rfl

/-- Region 2's rows are the mean and the one-pass variance of the second product. -/
theorem stats2 (c : Dev nD) :
    toRow (V7 m ρ c main_v26) = mean (matmul (R1.act (V5 m ρ) c) (toMat (V5 m ρ c main_arg7)))
    ∧ toRow (V7 m ρ c main_v30) = varK (matmul (R1.act (V5 m ρ) c) (toMat (V5 m ρ c main_arg7))) := by
  constructor
  · rw [HostK.V7_mean, R1.sum_eq]; rfl
  · rw [HostK.V7_var, R1.sum_eq, R1.sumsq_eq]; rfl

/-- The result array is the layer at the one-pass variance of the aggregated features region 0 is entered with. -/
theorem out_eq_entry (c : Dev nD) :
    toMat (W8 m ρ c (Proc.devRef .tc main_v31))
      = layer varK (toMat (V3 m ρ c main_v12)) (toMat (m ((c.tc : Thread nD τ).loc main_arg4)))
          (toVec (m ((c.tc : Thread nD τ).loc main_arg5))) (toVec (m ((c.tc : Thread nD τ).loc main_arg6)))
          (toMat (m ((c.tc : Thread nD τ).loc main_arg7)))
          (toVec (m ((c.tc : Thread nD τ).loc main_arg8))) (toVec (m ((c.tc : Thread nD τ).loc main_arg9))) := by
  rw [HostK.W8_out, R2.out_eq, (stats2 m ρ c).1, (stats2 m ρ c).2, HostK.V7_g2, HostK.V7_b2, HostK.V7_h2, R1.h2_eq]
  unfold R1.act
  rw [(stats1 m ρ c).1, (stats1 m ρ c).2, HostK.V5_g1, HostK.V5_b1, HostK.V5_h1, HostK.V5_W2, R0.h1_eq, HostK.V3_W1]
  rfl

/-- Under valid source ids the aggregated features are the reference's stage of the same arguments, so the result array is the
    layer at the one-pass variance applied to that stage. -/
theorem out_eq (c : Dev nD) (hsrc : SrcInRange (m ((c.tc : Thread nD τ).loc main_arg1))) :
    toMat (W8 m ρ c (Proc.devRef .tc main_v31))
      = layer varK (toMat (Cert.ReferenceIdeal.Read.val_main_v18 (F := Ideal) (m ((c.tc : Thread nD τ).loc main_arg0))
            (m ((c.tc : Thread nD τ).loc main_arg1)) (m ((c.tc : Thread nD τ).loc main_arg3))))
          (toMat (m ((c.tc : Thread nD τ).loc main_arg4)))
          (toVec (m ((c.tc : Thread nD τ).loc main_arg5))) (toVec (m ((c.tc : Thread nD τ).loc main_arg6)))
          (toMat (m ((c.tc : Thread nD τ).loc main_arg7)))
          (toVec (m ((c.tc : Thread nD τ).loc main_arg8))) (toVec (m ((c.tc : Thread nD τ).loc main_arg9))) := by
  rw [out_eq_entry, Cert.H0.V3_h0 m ρ c hsrc]

end Cert.KernelIdeal.KValue

end
-- ==== Proof.RefValue.lean ====
/-
  The reference's result, read one operation at a time off its generated run: from its aggregated features (stage %18) on, it is the layer with the two-pass variance.

  Each of the two blocks is read in the same order: the dense product as a sum over the contracted index; the column mean (a sum over the rows that
  starts from the zero word, divided by the row-count word); the deviations from the mean; the variance as the mean of the squared deviations; and last
  the normalised, scaled, shifted and rectified entry. A per-column value reaches a row-and-column position through two broadcasts, which read it at
  the column. No law of arithmetic is used beyond `0 + x = x`.
-/
import proofs.«413239_j75531294867868_1_alg».proof.Proof.Gen.ReferenceIdeal.Run
import proofs.«413239_j75531294867868_1_alg».proof.Proof.Gen.ReferenceIdeal.Read
import proofs.«413239_j75531294867868_1_alg».proof.Proof.Spec
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Read Cert.Gin

variable (x0 : (⟨S50000x128, .f32⟩ : BufTy).Contents (Elt Ideal)) (x1 : (⟨S2x800000, .i32⟩ : BufTy).Contents (Elt Ideal))
    (x3 : (⟨S1, .f32⟩ : BufTy).Contents (Elt Ideal)) (x4 : (⟨S128x256, .f32⟩ : BufTy).Contents (Elt Ideal))
    (x5 x6 : (⟨S256, .f32⟩ : BufTy).Contents (Elt Ideal)) (x7 : (⟨S256x256, .f32⟩ : BufTy).Contents (Elt Ideal))
    (x8 x9 : (⟨S256, .f32⟩ : BufTy).Contents (Elt Ideal))

/-! ## The first dense product and its normalisation (stages %19 to %45) -/

/-- Stage %19 is the matrix product of the aggregated features with the first weight matrix. -/
theorem prod1 :
    toMat (val_main_v19 (F := Ideal) x0 x1 x3 x4) = matmul (toMat (val_main_v18 (F := Ideal) x0 x1 x3)) (toMat x4) := by
  funext i j
  rw [toMat_apply, val_main_v19_apply, matmul_apply]
  refine Finset.sum_congr rfl fun k _ => ?_
  rw [toMat_apply, toMat_apply]
  refine congrArg₂ (· * ·) (congrArg (val_main_v18 (F := Ideal) x0 x1 x3) ?_) (congrArg x4 ?_)
  · exact funext fun a => Fin.ext (by match a with | ⟨0, _⟩ => rfl | ⟨1, _⟩ => rfl)
  · exact funext fun a => Fin.ext (by match a with | ⟨0, _⟩ => rfl | ⟨1, _⟩ => rfl)

/-- The position the sum of column `j` reads at row `k`. -/
private theorem sumIdx1a (j : Fin 256) (k : Fin 50000) : idx_main_v20 (ix1 j) k = ix2 k j :=
  funext fun a => Fin.ext (by match a with | ⟨0, _⟩ => rfl | ⟨1, _⟩ => rfl)
/-- The same for the sum of squared deviations. -/
private theorem sumIdx1b (j : Fin 256) (k : Fin 50000) : idx_main_v27 (ix1 j) k = ix2 k j :=
  funext fun a => Fin.ext (by match a with | ⟨0, _⟩ => rfl | ⟨1, _⟩ => rfl)
/-- A per-column value broadcast to a row and then over the rows is read at the column: the mean under the squared deviations, … -/
private theorem bc1a (i : Fin 50000) (j : Fin 256) : idx_main_v23 (idx_main_v24 (ix2 i j)) = ix1 j :=
  funext fun a => Fin.ext (by match a with | ⟨0, _⟩ => rfl)
/-- … the mean under the normalised entry, … -/
private theorem bc1b (i : Fin 50000) (j : Fin 256) : idx_main_v30 (idx_main_v31 (ix2 i j)) = ix1 j :=
  funext fun a => Fin.ext (by match a with | ⟨0, _⟩ => rfl)
/-- … the reciprocal square root, … -/
private theorem bc1c (i : Fin 50000) (j : Fin 256) : idx_main_v36 (idx_main_v37 (ix2 i j)) = ix1 j :=
  funext fun a => Fin.ext (by match a with | ⟨0, _⟩ => rfl)
/-- … the scale, … -/
private theorem bc1d (i : Fin 50000) (j : Fin 256) : idx_main_v39 (idx_main_v40 (ix2 i j)) = ix1 j :=
  funext fun a => Fin.ext (by match a with | ⟨0, _⟩ => rfl)
/-- … and the shift. -/
private theorem bc1e (i : Fin 50000) (j : Fin 256) : idx_main_v42 (idx_main_v43 (ix2 i j)) = ix1 j :=
  funext fun a => Fin.ext (by match a with | ⟨0, _⟩ => rfl)

/-- Stage %22 is the column mean of stage %19: the zero word the sum starts from is the real zero. -/
theorem mean1 (j : Fin 256) :
    val_main_v22 (F := Ideal) x0 x1 x3 x4 (ix1 j) = mean (toMat (val_main_v19 (F := Ideal) x0 x1 x3 x4)) j := by
  rw [val_main_v22_apply, val_main_v20_apply, val_main_v21_apply, val_main_cst_2_apply, val_main_cst_3_apply,
    Ideal.hostDivf_def, Ideal.ofBits_def, Ideal.ofBits_def, Ideal.ofBits_zero_f32, zero_add,
    Finset.sum_congr rfl fun k _ => congrArg (val_main_v19 (F := Ideal) x0 x1 x3 x4) (sumIdx1a j k)]
  rfl

/-- Stage %25 at a row and a column is stage %19 there minus the column's mean. -/
theorem dev1 (i : Fin 50000) (j : Fin 256) :
    val_main_v25 (F := Ideal) x0 x1 x3 x4 (ix2 i j)
      = toMat (val_main_v19 (F := Ideal) x0 x1 x3 x4) i j - mean (toMat (val_main_v19 (F := Ideal) x0 x1 x3 x4)) j := by
  rw [val_main_v25_apply, val_main_v24_apply, val_main_v23_apply, Ideal.subf_def, bc1a, mean1, toMat_apply]

/-- Stage %29 is the two-pass variance of stage %19: the mean of the squared deviations. -/
theorem var1 (j : Fin 256) :
    val_main_v29 (F := Ideal) x0 x1 x3 x4 (ix1 j) = varR (toMat (val_main_v19 (F := Ideal) x0 x1 x3 x4)) j := by
  rw [val_main_v29_apply, val_main_v27_apply, val_main_v28_apply, val_main_cst_4_apply, val_main_cst_5_apply,
    Ideal.hostDivf_def, Ideal.ofBits_def, Ideal.ofBits_def, Ideal.ofBits_zero_f32, zero_add,
    Finset.sum_congr rfl fun k _ => (congrArg (val_main_v26 (F := Ideal) x0 x1 x3 x4) (sumIdx1b j k)).trans
      ((val_main_v26_apply x0 x1 x3 x4 (ix2 k j)).trans
        (congrArg₂ FloatOps.mulf (dev1 x0 x1 x3 x4 k j) (dev1 x0 x1 x3 x4 k j)))]
  rfl

/-- Stage %45 at a row and a column: stage %19 normalised by its mean and two-pass variance, scaled, shifted and rectified. -/
theorem act1 (i : Fin 50000) (j : Fin 256) :
    val_main_v45 (F := Ideal) x0 x1 x3 x4 x5 x6 (ix2 i j)
      = bnRelu (mean (toMat (val_main_v19 (F := Ideal) x0 x1 x3 x4))) (varR (toMat (val_main_v19 (F := Ideal) x0 x1 x3 x4)))
          (toVec x5) (toVec x6) (toMat (val_main_v19 (F := Ideal) x0 x1 x3 x4)) i j := by
  rw [val_main_v45_apply, val_main_v44_apply, val_main_v41_apply, val_main_v38_apply, val_main_v32_apply,
    val_main_v31_apply, val_main_v30_apply, val_main_v37_apply, val_main_v36_apply, val_main_v40_apply, val_main_v39_apply,
    val_main_v43_apply, val_main_v42_apply, val_main_call0_v0_apply, val_main_call0_cst_apply,
    bc1b, bc1c, bc1d, bc1e, val_main_v35_apply, val_main_v34_apply, val_main_v33_apply, val_main_cst_6_apply, mean1, var1,
    Ideal.maximumf_def, Ideal.addf_def, Ideal.addf_def, Ideal.mulf_def, Ideal.mulf_def, Ideal.subf_def,
    Ideal.hostUnary_rsqrt_def, Ideal.ofBits_def, Ideal.ofBits_def, bnRelu_apply, toMat_apply, toVec_apply, toVec_apply]

/-- Stage %45 is the first normalisation block applied to stage %19. -/
theorem norm1 :
    toMat (val_main_v45 (F := Ideal) x0 x1 x3 x4 x5 x6)
      = bnRelu (mean (toMat (val_main_v19 (F := Ideal) x0 x1 x3 x4))) (varR (toMat (val_main_v19 (F := Ideal) x0 x1 x3 x4)))
          (toVec x5) (toVec x6) (toMat (val_main_v19 (F := Ideal) x0 x1 x3 x4)) := by
  funext i j
  rw [toMat_apply]
  exact act1 x0 x1 x3 x4 x5 x6 i j

/-! ## The second dense product and its normalisation (stages %46 to %72) -/

/-- Stage %46 is the matrix product of the first block's result with the second weight matrix. -/
theorem prod2 :
    toMat (val_main_v46 (F := Ideal) x0 x1 x3 x4 x5 x6 x7)
      = matmul (toMat (val_main_v45 (F := Ideal) x0 x1 x3 x4 x5 x6)) (toMat x7) := by
  funext i j
  rw [toMat_apply, val_main_v46_apply, matmul_apply]
  refine Finset.sum_congr rfl fun k _ => ?_
  rw [toMat_apply, toMat_apply]
  refine congrArg₂ (· * ·) (congrArg (val_main_v45 (F := Ideal) x0 x1 x3 x4 x5 x6) ?_) (congrArg x7 ?_)
  · exact funext fun a => Fin.ext (by match a with | ⟨0, _⟩ => rfl | ⟨1, _⟩ => rfl)
  · exact funext fun a => Fin.ext (by match a with | ⟨0, _⟩ => rfl | ⟨1, _⟩ => rfl)

/-- The position the sum of column `j` reads at row `k`. -/
private theorem sumIdx2a (j : Fin 256) (k : Fin 50000) : idx_main_v47 (ix1 j) k = ix2 k j :=
  funext fun a => Fin.ext (by match a with | ⟨0, _⟩ => rfl | ⟨1, _⟩ => rfl)
/-- The same for the sum of squared deviations. -/
private theorem sumIdx2b (j : Fin 256) (k : Fin 50000) : idx_main_v54 (ix1 j) k = ix2 k j :=
  funext fun a => Fin.ext (by match a with | ⟨0, _⟩ => rfl | ⟨1, _⟩ => rfl)
/-- The two broadcasts of a per-column value, read at the column: the mean under the squared deviations, … -/
private theorem bc2a (i : Fin 50000) (j : Fin 256) : idx_main_v50 (idx_main_v51 (ix2 i j)) = ix1 j :=
  funext fun a => Fin.ext (by match a with | ⟨0, _⟩ => rfl)
/-- … the mean under the normalised entry, … -/
private theorem bc2b (i : Fin 50000) (j : Fin 256) : idx_main_v57 (idx_main_v58 (ix2 i j)) = ix1 j :=
  funext fun a => Fin.ext (by match a with | ⟨0, _⟩ => rfl)
/-- … the reciprocal square root, … -/
private theorem bc2c (i : Fin 50000) (j : Fin 256) : idx_main_v63 (idx_main_v64 (ix2 i j)) = ix1 j :=
  funext fun a => Fin.ext (by match a with | ⟨0, _⟩ => rfl)
/-- … the scale, … -/
private theorem bc2d (i : Fin 50000) (j : Fin 256) : idx_main_v66 (idx_main_v67 (ix2 i j)) = ix1 j :=
  funext fun a => Fin.ext (by match a with | ⟨0, _⟩ => rfl)
/-- … and the shift. -/
private theorem bc2e (i : Fin 50000) (j : Fin 256) : idx_main_v69 (idx_main_v70 (ix2 i j)) = ix1 j :=
  funext fun a => Fin.ext (by match a with | ⟨0, _⟩ => rfl)

/-- Stage %49 is the column mean of stage %46. -/
theorem mean2 (j : Fin 256) :
    val_main_v49 (F := Ideal) x0 x1 x3 x4 x5 x6 x7 (ix1 j) = mean (toMat (val_main_v46 (F := Ideal) x0 x1 x3 x4 x5 x6 x7)) j := by
  rw [val_main_v49_apply, val_main_v47_apply, val_main_v48_apply, val_main_cst_7_apply, val_main_cst_8_apply,
    Ideal.hostDivf_def, Ideal.ofBits_def, Ideal.ofBits_def, Ideal.ofBits_zero_f32, zero_add,
    Finset.sum_congr rfl fun k _ => congrArg (val_main_v46 (F := Ideal) x0 x1 x3 x4 x5 x6 x7) (sumIdx2a j k)]
  rfl

/-- Stage %52 at a row and a column is stage %46 there minus the column's mean. -/
theorem dev2 (i : Fin 50000) (j : Fin 256) :
    val_main_v52 (F := Ideal) x0 x1 x3 x4 x5 x6 x7 (ix2 i j)
      = toMat (val_main_v46 (F := Ideal) x0 x1 x3 x4 x5 x6 x7) i j
        - mean (toMat (val_main_v46 (F := Ideal) x0 x1 x3 x4 x5 x6 x7)) j := by
  rw [val_main_v52_apply, val_main_v51_apply, val_main_v50_apply, Ideal.subf_def, bc2a, mean2, toMat_apply]

/-- Stage %56 is the two-pass variance of stage %46. -/
theorem var2 (j : Fin 256) :
    val_main_v56 (F := Ideal) x0 x1 x3 x4 x5 x6 x7 (ix1 j) = varR (toMat (val_main_v46 (F := Ideal) x0 x1 x3 x4 x5 x6 x7)) j := by
  rw [val_main_v56_apply, val_main_v54_apply, val_main_v55_apply, val_main_cst_9_apply, val_main_cst_10_apply,
    Ideal.hostDivf_def, Ideal.ofBits_def, Ideal.ofBits_def, Ideal.ofBits_zero_f32, zero_add,
    Finset.sum_congr rfl fun k _ => (congrArg (val_main_v53 (F := Ideal) x0 x1 x3 x4 x5 x6 x7) (sumIdx2b j k)).trans
      ((val_main_v53_apply x0 x1 x3 x4 x5 x6 x7 (ix2 k j)).trans
        (congrArg₂ FloatOps.mulf (dev2 x0 x1 x3 x4 x5 x6 x7 k j) (dev2 x0 x1 x3 x4 x5 x6 x7 k j)))]
  rfl

/-- Stage %72 at a row and a column: stage %46 normalised by its mean and two-pass variance, scaled, shifted and rectified. -/
theorem act2 (i : Fin 50000) (j : Fin 256) :
    val_main_v72 (F := Ideal) x0 x1 x3 x4 x5 x6 x7 x8 x9 (ix2 i j)
      = bnRelu (mean (toMat (val_main_v46 (F := Ideal) x0 x1 x3 x4 x5 x6 x7)))
          (varR (toMat (val_main_v46 (F := Ideal) x0 x1 x3 x4 x5 x6 x7)))
          (toVec x8) (toVec x9) (toMat (val_main_v46 (F := Ideal) x0 x1 x3 x4 x5 x6 x7)) i j := by
  rw [val_main_v72_apply, val_main_v71_apply, val_main_v68_apply, val_main_v65_apply, val_main_v59_apply,
    val_main_v58_apply, val_main_v57_apply, val_main_v64_apply, val_main_v63_apply, val_main_v67_apply, val_main_v66_apply,
    val_main_v70_apply, val_main_v69_apply, val_main_call1_v0_apply, val_main_call1_cst_apply,
    bc2b, bc2c, bc2d, bc2e, val_main_v62_apply, val_main_v61_apply, val_main_v60_apply, val_main_cst_11_apply, mean2, var2,
    Ideal.maximumf_def, Ideal.addf_def, Ideal.addf_def, Ideal.mulf_def, Ideal.mulf_def, Ideal.subf_def,
    Ideal.hostUnary_rsqrt_def, Ideal.ofBits_def, Ideal.ofBits_def, bnRelu_apply, toMat_apply, toVec_apply, toVec_apply]

/-- Stage %72 is the second normalisation block applied to stage %46. -/
theorem norm2 :
    toMat (val_main_v72 (F := Ideal) x0 x1 x3 x4 x5 x6 x7 x8 x9)
      = bnRelu (mean (toMat (val_main_v46 (F := Ideal) x0 x1 x3 x4 x5 x6 x7)))
          (varR (toMat (val_main_v46 (F := Ideal) x0 x1 x3 x4 x5 x6 x7)))
          (toVec x8) (toVec x9) (toMat (val_main_v46 (F := Ideal) x0 x1 x3 x4 x5 x6 x7)) := by
  funext i j
  rw [toMat_apply]
  exact act2 x0 x1 x3 x4 x5 x6 x7 x8 x9 i j

/-! ## The whole layer -/

/-- The reference's last stage is the layer at the two-pass variance, applied to its own aggregated features. -/
theorem ref_eq (x0 : (⟨S50000x128, .f32⟩ : BufTy).Contents (Elt Ideal)) (x1 : (⟨S2x800000, .i32⟩ : BufTy).Contents (Elt Ideal))
    (x3 : (⟨S1, .f32⟩ : BufTy).Contents (Elt Ideal)) (x4 : (⟨S128x256, .f32⟩ : BufTy).Contents (Elt Ideal))
    (x5 x6 : (⟨S256, .f32⟩ : BufTy).Contents (Elt Ideal)) (x7 : (⟨S256x256, .f32⟩ : BufTy).Contents (Elt Ideal))
    (x8 x9 : (⟨S256, .f32⟩ : BufTy).Contents (Elt Ideal)) :
    toMat (val_main_v72 (F := Ideal) x0 x1 x3 x4 x5 x6 x7 x8 x9)
      = layer varR (toMat (val_main_v18 (F := Ideal) x0 x1 x3)) (toMat x4) (toVec x5) (toVec x6) (toMat x7) (toVec x8) (toVec x9) := by
  rw [norm2, prod2, norm1, prod1, layer]

end Cert.ReferenceIdeal.RefValue

end
-- ==== Proof.PreDecode.lean ====
/-
  What the precondition says, entry by entry: every float argument is a real number, and every source node id is a
  valid row index of the feature table.

  The precondition is a conjunction of "all entries satisfy …" tests. A float test compares |x| with +∞: an extended
  real whose absolute value max x (−x) is below +∞ is neither infinity, hence a real number. The integer test compares
  every entry of row 0 of the edge array, read signed, with −50000 from below and 50000 from above.
-/
import proofs.«413239_j75531294867868_1_alg».proof.Pre_finite_inputs
import proofs.«413239_j75531294867868_1_alg».proof.Proof.Gen.Pre_finite_inputs
import proofs.«413239_j75531294867868_1_alg».proof.Proof.Spec
import Idealize.ShloMosaic.Lib.ReduceAll
import Idealize.ShloMosaic.Lib.Pipeline.Value
import Idealize.ShloMosaic.Lib.StableHlo.Predicate

set_option maxRecDepth 16384

noncomputable section

open scoped BigOperators

namespace Cert.PreDecode

open Idealize.ShloMosaic Idealize.ShloMosaic.TcCoe Idealize.ShloMosaic.ValueIdx Idealize.SL.Sem
open Cert.Gin Cert.Pre_finite_inputs Cert.Pre_finite_inputs.Facts

/-- The scalar shape has one index. -/
instance : Subsingleton (⟨0, ![]⟩ : Shape).Idx := ⟨fun a b => funext fun d => d.elim0⟩

/-- The word `0x7F800000` denotes +∞. -/
theorem ofBits_inf : Ideal.ofBits .f32 0x7F800000#32 = ⊤ := by simp [Ideal.ofBits, Ideal.ieee]

/-- An extended real whose absolute value is below +∞ is a real number. -/
theorem real_of_abs_lt (v : EReal) (h : Ideal.cmp .olt (max v (-v)) (Ideal.ofBits .f32 0x7F800000#32) = 1#1) : IsReal v := by
  rw [ofBits_inf] at h
  induction v using EReal.rec with
  | bot => simp [Ideal.cmp] at h
  | coe r => exact ⟨r, rfl⟩
  | top => simp [Ideal.cmp] at h

/-- One float conjunct: if "every |entry| is below +∞" reduces to true, every entry is a real number. -/
theorem all_real {S : Shape} {axes : List (Fin S.rank)} (x : S.Idx → EReal)
    (hb : (⟨0, ![]⟩ : Shape).BroadcastsInDim S ![]) (hr : S.ReducesTo axes ⟨0, ![]⟩) (hu : 0 < (⟨0, ![]⟩ : Shape).numel)
    (e : Host.reduce IntOp.andi (cmpf (F := Ideal) .olt (Host.absf x)
        (broadcastInDim S ![] hb (constant (⟨0, ![]⟩ : Shape) .f32 0x7F800000#32))) (constantI (⟨0, ![]⟩ : Shape) 1 1#1) hr hu ix0 = 1#1)
    (i : S.Idx) : IsReal (x i) :=
  real_of_abs_lt (x i) (Host.reduce_andi_all _ _ hr hu ix0 e i)

/-- The word `4294917296` read signed is −50000. -/
theorem toInt_neg : (4294917296#32 : BitVec 32).toInt = -50000 := by decide
theorem toInt_pos : (50000#32 : BitVec 32).toInt = 50000 := by decide

/-- The precondition's conjuncts, read entry by entry. -/
theorem decode
    (x0 : (⟨2, ![50000, 128]⟩ : Shape).Idx → EReal) (x1 : (⟨2, ![2, 800000]⟩ : Shape).Idx → BitVec 32)
    (x2 : (⟨1, ![50000]⟩ : Shape).Idx → BitVec 32) (x3 : (⟨1, ![1]⟩ : Shape).Idx → EReal)
    (x4 : (⟨2, ![128, 256]⟩ : Shape).Idx → EReal) (x5 x6 : (⟨1, ![256]⟩ : Shape).Idx → EReal)
    (x7 : (⟨2, ![256, 256]⟩ : Shape).Idx → EReal) (x8 x9 : (⟨1, ![256]⟩ : Shape).Idx → EReal)
    (h : Cert.Pre_finite_inputs.fn (F := Ideal) x0 x1 x2 x3 x4 x5 x6 x7 x8 x9 = (fun _ => 1#1)) :
    (∀ i, IsReal (x0 i)) ∧ (∀ i, IsReal (x3 i)) ∧ (∀ i, IsReal (x4 i)) ∧ (∀ i, IsReal (x5 i)) ∧ (∀ i, IsReal (x6 i))
      ∧ (∀ i, IsReal (x7 i)) ∧ (∀ i, IsReal (x8 i)) ∧ (∀ i, IsReal (x9 i)) ∧ SrcInRange x1 := by
  have h0 := congrFun h ix0
  dsimp only [Cert.Pre_finite_inputs.fn, Cert.Pre_finite_inputs.fn_part1, Cert.Pre_finite_inputs.fn_part2] at h0
  obtain ⟨h0, eI⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨e0, e3⟩ := IntOp.andi_eq_one.mp h0
  refine ⟨all_real x0 _ _ _ e0, all_real x3 _ _ _ e3, all_real x4 _ _ _ e4, all_real x5 _ _ _ e5, all_real x6 _ _ _ e6,
    all_real x7 _ _ _ e7, all_real x8 _ _ _ e8, all_real x9 _ _ _ e9, fun e => ?_⟩
  have he := Host.reduce_andi_all _ _ _ _ ix0 eI (ix1 e)
  obtain ⟨hge, hlt⟩ := IntOp.andi_eq_one.mp he
  -- the entry the two comparisons read is row 0, column e of the edge array
  have hread : (shapeCast S800000 (extractStridedSlice S1x800000 ![0, 0] x1 slices_S2x800000_S1x800000_0_0)
      shapeCasts_S1x800000_S800000 : S800000.Idx → BitVec 32) (ix1 e) = x1 (ix2 0 e) := by
    rw [shapeCast_apply _ _ (ix1 e) (ix2 (0 : Fin 1) e) (by rw [Shape.rowMajor_val_two, Shape.rowMajor_val_one]; simp)]
    exact extractStridedSlice_apply _ _ _ _ (ix2 0 e) (fun a => by match a with | ⟨0, _⟩ => rfl | ⟨1, _⟩ => simp)
  have hge' : (4294917296#32 : BitVec 32).sle (x1 (ix2 0 e)) = true := by
    rw [← hread]; exact (StableHlo.Predicate.ofBool_eq_one_iff _).mp hge
  have hlt' : (x1 (ix2 0 e)).slt (50000#32 : BitVec 32) = true := by
    rw [← hread]; exact (StableHlo.Predicate.ofBool_eq_one_iff _).mp hlt
  rw [BitVec.sle_eq_decide, decide_eq_true_eq, toInt_neg] at hge'
  rw [BitVec.slt_eq_decide, decide_eq_true_eq, toInt_pos] at hlt'
  exact ⟨hge', hlt'⟩

end Cert.PreDecode

end
-- ==== Proof.Algebra.lean ====
/-
  The one law that joins the two programs: on a column of REAL numbers h₁ … h_N with N = 50000 rows and mean
  μ = (∑ h) / N,
      (∑ h²) / N − μ²  =  (∑ (h − μ)²) / N ,
  because ∑ (h − μ)² = ∑ h² − 2 μ ∑ h + N μ² = ∑ h² − N μ². On the extended reals the law fails at the infinities
  (∞ − ∞), so it is proved for real entries, and reality is carried through the layer: a product of real matrices is
  real, a variance of real entries is a non-negative real, so the variance plus the positive epsilon is a positive real
  and its reciprocal square root is real, and the normalised, rectified entries are real again.
-/
import proofs.«413239_j75531294867868_1_alg».proof.Proof.Spec
import Idealize.ShloMosaic.PureOps.Ideal.Laws

noncomputable section

open scoped BigOperators

namespace Cert.Gin

open Idealize.ShloMosaic

/-! ## The three words -/

/-- The row-count word denotes the real 50000. -/
theorem wN_eq : wN = ((50000 : ℝ) : EReal) := by
  simp [wN, Ideal.ofBits, Ideal.ieee, -EReal.coe_mul]; norm_num

/-- The epsilon word denotes a positive real. -/
theorem wEps_pos : ∃ e : ℝ, 0 < e ∧ wEps = (e : EReal) := by
  refine ⟨10995116 / 2 ^ 40, by norm_num, ?_⟩
  simp [wEps, Ideal.ofBits, Ideal.ieee, -EReal.coe_mul]; norm_num

/-- The rectifier's floor denotes zero. -/
theorem wZero_eq : wZero = 0 := Ideal.ofBits_zero_f32

/-! ## Real entries are closed under the layer's operations -/

theorem IsReal.coe (r : ℝ) : IsReal (r : EReal) := ⟨r, rfl⟩
theorem IsReal.zero : IsReal 0 := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (max a b) := by
  rcases max_choice a b with h | h <;> rw [h] <;> assumption
theorem IsReal.sum {ι : Type} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))
/-- A sum of coerced reals is the coerced sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]
/-- Division by the row-count word is division by 50000. -/
theorem div_wN (r : ℝ) : Ideal.div (r : EReal) wN = ((r / 50000 : ℝ) : EReal) := by
  rw [wN_eq, Ideal.div_coe (by norm_num : (50000 : ℝ) ≠ 0), ← EReal.coe_mul]; congr 1; ring
theorem IsReal.div_wN {a : EReal} (ha : IsReal a) : IsReal (Ideal.div a wN) := by
  obtain ⟨x, rfl⟩ := ha; exact ⟨_, Cert.Gin.div_wN x⟩
/-- The reciprocal square root of a positive real is a real. -/
theorem IsReal.rsqrt_pos {r : ℝ} (hr : 0 < r) : IsReal (Ideal.rsqrt (r : EReal)) := by
  refine ⟨(Real.sqrt r)⁻¹, ?_⟩
  rw [Ideal.rsqrt_coe, if_neg (not_lt.mpr hr.le), if_neg hr.ne']

variable {n k : Nat}

theorem matmul_real {m : Nat} (a : Mat m k) (b : Mat k n) (ha : ∀ i l, IsReal (a i l)) (hb : ∀ l j, IsReal (b l j))
    (i : Fin m) (j : Fin n) : IsReal (matmul a b i j) :=
  IsReal.sum _ _ fun l _ => (ha i l).mul (hb l j)

/-! ## The statistics of a real matrix of 50000 rows -/

section Real
variable (a : Fin 50000 → Fin n → ℝ)

/-- The matrix of extended reals of a real matrix. -/
def coeMat : Mat 50000 n := fun i j => (a i j : EReal)

theorem colSum_coe (j : Fin n) : colSum (coeMat a) j = ((∑ i, a i j : ℝ) : EReal) := coe_sum _ _
theorem colSumSq_coe (j : Fin n) : colSumSq (coeMat a) j = ((∑ i, a i j * a i j : ℝ) : EReal) := by
  unfold colSumSq coeMat; simp only [← EReal.coe_mul]; exact coe_sum _ _
theorem mean_coe (j : Fin n) : mean (coeMat a) j = (((∑ i, a i j) / 50000 : ℝ) : EReal) := by
  unfold mean; rw [colSum_coe, div_wN]
theorem varK_coe (j : Fin n) :
    varK (coeMat a) j = (((∑ i, a i j * a i j) / 50000 - (∑ i, a i j) / 50000 * ((∑ i, a i j) / 50000) : ℝ) : EReal) := by
  unfold varK; rw [colSumSq_coe, div_wN, mean_coe, ← EReal.coe_mul, ← EReal.coe_sub]
theorem varR_coe (j : Fin n) :
    varR (coeMat a) j = (((∑ i, (a i j - (∑ i, a i j) / 50000) * (a i j - (∑ i, a i j) / 50000)) / 50000 : ℝ) : EReal) := by
  unfold varR; rw [mean_coe]
  have : ∀ i, (coeMat a i j - (((∑ i, a i j) / 50000 : ℝ) : EReal)) * (coeMat a i j - (((∑ i, a i j) / 50000 : ℝ) : EReal))
      = (((a i j - (∑ i, a i j) / 50000) * (a i j - (∑ i, a i j) / 50000) : ℝ) : EReal) := fun i => by
    unfold coeMat; rw [← EReal.coe_sub, ← EReal.coe_mul]
  simp only [this]; rw [coe_sum, div_wN]

/-- The law over the reals, for 50000 rows. -/
theorem var_real (f : Fin 50000 → ℝ) :
    (∑ i, f i * f i) / 50000 - (∑ i, f i) / 50000 * ((∑ i, f i) / 50000)
      = (∑ i, (f i - (∑ i, f i) / 50000) * (f i - (∑ i, f i) / 50000)) / 50000 := by
  set μ : ℝ := (∑ i, f i) / 50000 with hμ
  have hS : ∑ i, f i = 50000 * μ := by rw [hμ]; ring
  have hexp : ∑ i, (f i - μ) * (f i - μ) = ∑ i, f i * f i - 2 * μ * ∑ i, f i + 50000 * (μ * μ) := by
    have : ∀ i, (f i - μ) * (f i - μ) = f i * f i - 2 * μ * f i + μ * μ := fun i => by ring
    simp only [this]
    rw [Finset.sum_add_distrib, Finset.sum_sub_distrib, ← Finset.mul_sum, Finset.sum_const, Finset.card_univ,
      Fintype.card_fin, nsmul_eq_mul]
    norm_num
  rw [hexp, hS]; ring

theorem varK_eq_varR_coe : varK (coeMat a) = varR (coeMat a) := by
  funext j; rw [varK_coe, varR_coe]; congr 1; exact var_real fun i => a i j

/-- The two-pass variance of a real matrix is a non-negative real. -/
theorem varR_coe_nonneg (j : Fin n) : ∃ v : ℝ, 0 ≤ v ∧ varR (coeMat a) j = (v : EReal) :=
  ⟨_, div_nonneg (Finset.sum_nonneg fun i _ => mul_self_nonneg _) (by norm_num), varR_coe a j⟩

end Real

/-- A matrix with real entries is the matrix of a real matrix. -/
theorem exists_coeMat (h : Mat 50000 n) (hr : ∀ i j, IsReal (h i j)) : ∃ a : Fin 50000 → Fin n → ℝ, h = coeMat a := by
  choose a ha using hr
  exact ⟨a, funext fun i => funext fun j => ha i j⟩

theorem varK_eq_varR (h : Mat 50000 n) (hr : ∀ i j, IsReal (h i j)) : varK h = varR h := by
  obtain ⟨a, rfl⟩ := exists_coeMat h hr; exact varK_eq_varR_coe a

theorem mean_real (h : Mat 50000 n) (hr : ∀ i j, IsReal (h i j)) (j : Fin n) : IsReal (mean h j) := by
  obtain ⟨a, rfl⟩ := exists_coeMat h hr; exact ⟨_, mean_coe a j⟩

theorem varR_nonneg (h : Mat 50000 n) (hr : ∀ i j, IsReal (h i j)) (j : Fin n) : ∃ v : ℝ, 0 ≤ v ∧ varR h j = (v : EReal) := by
  obtain ⟨a, rfl⟩ := exists_coeMat h hr; exact varR_coe_nonneg a j

/-- Normalising real entries by a real mean and a non-negative real variance, with real scale and shift, gives real entries. -/
theorem bnRelu_real {m : Nat} (mu var g b : Row n) (h : Mat m n) (hmu : ∀ j, IsReal (mu j))
    (hvar : ∀ j, ∃ v : ℝ, 0 ≤ v ∧ var j = (v : EReal)) (hg : ∀ j, IsReal (g j)) (hb : ∀ j, IsReal (b j))
    (hh : ∀ i j, IsReal (h i j)) (i : Fin m) (j : Fin n) : IsReal (bnRelu mu var g b h i j) := by
  obtain ⟨v, hv, hvj⟩ := hvar j
  obtain ⟨e, he, hee⟩ := wEps_pos
  have hrs : IsReal (Ideal.rsqrt (var j + wEps)) := by
    rw [hvj, hee, ← EReal.coe_add]; exact IsReal.rsqrt_pos (by linarith)
  rw [bnRelu_apply]
  exact (((((hh i j).sub (hmu j)).mul hrs).mul (hg j)).add (hb j)).max (by rw [wZero_eq]; exact IsReal.zero)

/-! ## The layer at the two variances -/

/-- For real aggregated features, real weights and a real first scale and shift, the layer computed with the one-pass
    variance is the layer computed with the two-pass variance. (The second scale and shift may be anything: both sides
    carry them the same way.) -/
theorem layer_varK_eq_varR (h0 : Mat 50000 128) (W1 : Mat 128 256) (g1 b1 : Row 256) (W2 : Mat 256 256) (g2 b2 : Row 256)
    (hh0 : ∀ i l, IsReal (h0 i l)) (hW1 : ∀ l j, IsReal (W1 l j)) (hg1 : ∀ j, IsReal (g1 j)) (hb1 : ∀ j, IsReal (b1 j))
    (hW2 : ∀ l j, IsReal (W2 l j)) :
    layer varK h0 W1 g1 b1 W2 g2 b2 = layer varR h0 W1 g1 b1 W2 g2 b2 := by
  have h1r : ∀ i j, IsReal (matmul h0 W1 i j) := matmul_real h0 W1 hh0 hW1
  have e1 : varK (matmul h0 W1) = varR (matmul h0 W1) := varK_eq_varR _ h1r
  have a1r : ∀ i j, IsReal (bnRelu (mean (matmul h0 W1)) (varR (matmul h0 W1)) g1 b1 (matmul h0 W1) i j) :=
    bnRelu_real _ _ _ _ _ (mean_real _ h1r) (varR_nonneg _ h1r) hg1 hb1 h1r
  have h2r := matmul_real _ W2 a1r hW2
  have e2 := varK_eq_varR _ h2r
  unfold layer
  simp only [e1, e2]

end Cert.Gin

end
-- ==== Proof.H0Real.lean ====
/-
  The aggregated node features are real numbers when the feature table and eps are, whatever the edge array holds:
  an entry is (1 + eps) times a table entry plus a destination row's sum; a gathered entry is some entry of the
  table, a destination's sum runs over finitely many edges, and the sum starts from zero.
-/
import proofs.«413239_j75531294867868_1_alg».proof.Proof.Gen.ReferenceIdeal.Read
import proofs.«413239_j75531294867868_1_alg».proof.Proof.Spec
import proofs.«413239_j75531294867868_1_alg».proof.Proof.Algebra

set_option maxRecDepth 16384

noncomputable section

open scoped BigOperators

namespace Cert.H0

open Idealize.ShloMosaic Idealize.ShloMosaic.TcCoe Idealize.ShloMosaic.ValueIdx
open Cert.ReferenceIdeal Cert.ReferenceIdeal.Read Cert.Gin

/-- The word `1.0` denotes the real 1. -/
theorem ofBits_one : Ideal.ofBits .f32 0x3F800000#32 = ((1 : ℝ) : EReal) := by
  simp [Ideal.ofBits, Ideal.ieee, -EReal.coe_mul]; norm_num

/-- An accumulating scatter of real updates into a real operand is real: each element is the operand's plus a finite sum. -/
theorem scatterAdd_real {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact IsReal.add (hx i) (IsReal.sum _ _ fun j _ => hu j)

/-- The same for the host operation as the programs spell it (at generic shapes the two spellings are one by definition). -/
theorem hostScatterAdd_real {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd d x idx upd i) :=
  scatterAdd_real d x idx upd hx hu i

/-- A gather of a real table is real: each element is some element of the table. -/
theorem gather_real {s si t : Shape} (d : GatherDims s si t) {w : Nat} (x : s.Idx → EReal) (idx : IVec si w)
    (hx : ∀ i, IsReal (x i)) (j : t.Idx) : IsReal (Host.gather d x idx j) := by
  unfold Host.gather; exact hx _

/-- The sum's starting array is zero everywhere. -/
theorem zeros_real (y : S50000x128.Idx) : IsReal (val_main_v11 (F := Ideal) y) := by
  rw [val_main_v11_apply, val_main_cst_apply, Ideal.ofBits_def, Ideal.ofBits_zero_f32]; exact IsReal.zero

/-- The aggregate (the destination rows' sums) is real. -/
theorem agg_real (x0 : (⟨2, ![50000, 128]⟩ : Shape).Idx → EReal) (x1 : (⟨2, ![2, 800000]⟩ : Shape).Idx → BitVec 32)
    (hx : ∀ i, IsReal (x0 i)) (y : S50000x128.Idx) : IsReal (val_main_v13 (F := Ideal) x0 x1 y) := by
  have h10 : ∀ j, IsReal (val_main_v10 (F := Ideal) x0 x1 j) := fun j => by
    unfold val_main_v10; exact gather_real _ _ _ hx j
  have h11 : ∀ z, IsReal (val_main_v11 (F := Ideal) z) := zeros_real
  unfold val_main_v13
  -- the three operands as opaque arrays: only their reality matters
  generalize val_main_v12 (F := Ideal) x1 = idx
  revert h10; generalize val_main_v10 (F := Ideal) x0 x1 = upd; intro h10
  revert h11; generalize val_main_v11 (F := Ideal) = zs; intro h11
  exact hostScatterAdd_real _ zs idx upd h11 h10 y

/-- The factor 1 + eps is real. -/
theorem scale_real (x3 : (⟨1, ![1]⟩ : Shape).Idx → EReal) (he : ∀ i, IsReal (x3 i)) (y : S50000x128.Idx) :
    IsReal (val_main_v16 (F := Ideal) x3 y) := by
  rw [val_main_v16_apply, val_main_v15_apply, val_main_cst_1_apply]
  simp only [Ideal.addf_def, Ideal.ofBits_def]
  refine IsReal.add ⟨1, ofBits_one⟩ ?_
  unfold val_main_v14 shapeCast; exact he _

/-- The aggregated features are real numbers when the feature table and eps are. -/
theorem h0_real (x0 : (⟨2, ![50000, 128]⟩ : Shape).Idx → EReal) (x1 : (⟨2, ![2, 800000]⟩ : Shape).Idx → BitVec 32)
    (x3 : (⟨1, ![1]⟩ : Shape).Idx → EReal) (hx : ∀ i, IsReal (x0 i)) (he : ∀ i, IsReal (x3 i)) (i : Fin 50000) (k : Fin 128) :
    IsReal (toMat (val_main_v18 (F := Ideal) x0 x1 x3) i k) := by
  show IsReal (val_main_v18 (F := Ideal) x0 x1 x3 (ix2 i k))
  rw [val_main_v18_apply, val_main_v17_apply]
  simp only [Ideal.addf_def, Ideal.mulf_def]
  exact IsReal.add (IsReal.mul (scale_real x3 he _) (hx _)) (agg_real x0 x1 hx _)

end Cert.H0

end
-- ==== Proof.lean ====
/-
  A graph-isomorphism layer's dense part, as three pipelined kernels against its array-level reference, over the extended reals.

  Both programs first aggregate: per edge the source node's feature row is added into the destination node's row, and
  (1 + eps) times the features is added. One program gathers a source row with a fill value outside the table; the added
  precondition says every source id is a valid row index, where the fill is never taken, so the aggregated features are one
  array (Proof/H0Bridge.lean). From there the kernels compute, over ten blocks of 5000 rows each, the product with the first
  weights and its running column sums and sums of squares (Proof/Region0.lean); the host turns these into a mean and the
  variance "mean of squares minus squared mean" (Proof/HostK.lean); the second kernel normalises, rectifies, multiplies by the
  second weights and accumulates again (Proof/Region1.lean); the third normalises and rectifies (Proof/Region2.lean): the
  layer at the one-pass variance (Proof/KernelValue.lean). The reference computes each variance as the mean of squared
  deviations: the layer at the two-pass variance (Proof/RefValue.lean). For finite inputs every entry on the way is a real
  number and the two variances agree (Proof/Algebra.lean), so the results are equal entry by entry.

  The frames are the generated ones; the kernel program's run is the generated launch called once more with the result array
  kept (Proof/RunValue.lean); the reference's frame is its generated run with the result dropped; the idealization rewrote no
  operation, so nothing is owed for it.
-/
import proofs.«413239_j75531294867868_1_alg».proof.Defs
import proofs.«413239_j75531294867868_1_alg».proof.Proof.Gen.Kernel
import proofs.«413239_j75531294867868_1_alg».proof.Proof.Gen.Kernel.Skeleton
import proofs.«413239_j75531294867868_1_alg».proof.Proof.Gen.Kernel.Launch
import proofs.«413239_j75531294867868_1_alg».proof.Proof.Gen.Kernel.Points
import proofs.«413239_j75531294867868_1_alg».proof.Proof.Gen.Kernel.Frame
import proofs.«413239_j75531294867868_1_alg».proof.Proof.Gen.KernelIdeal
import proofs.«413239_j75531294867868_1_alg».proof.Proof.Gen.KernelIdeal.Skeleton
import proofs.«413239_j75531294867868_1_alg».proof.Proof.Gen.KernelIdeal.Launch
import proofs.«413239_j75531294867868_1_alg».proof.Proof.Gen.KernelIdeal.Points
import proofs.«413239_j75531294867868_1_alg».proof.Proof.Gen.KernelIdeal.Frame
import proofs.«413239_j75531294867868_1_alg».proof.Proof.Gen.ReferenceIdeal
import proofs.«413239_j75531294867868_1_alg».proof.Proof.Gen.ReferenceIdeal.Run
import proofs.«413239_j75531294867868_1_alg».proof.Proof.Gen.ReferenceIdeal.Read
import proofs.«413239_j75531294867868_1_alg».proof.Proof.Gen.Pre_finite_inputs
import proofs.«413239_j75531294867868_1_alg».proof.Proof.RunValue
import proofs.«413239_j75531294867868_1_alg».proof.Proof.KernelValue
import proofs.«413239_j75531294867868_1_alg».proof.Proof.RefValue
import proofs.«413239_j75531294867868_1_alg».proof.Proof.PreDecode
import proofs.«413239_j75531294867868_1_alg».proof.Proof.H0Real
import proofs.«413239_j75531294867868_1_alg».proof.Proof.Algebra
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Gin

/-- Two rank-2 arrays with the same entries by row and column are equal. -/
theorem eq_of_toMat {a b : Nat} {u v : (⟨2, ![a, b]⟩ : Shape).Idx → EReal} (h : toMat u = toMat v) : u = v := by
  funext y; rw [eq_ix2 y]; exact congrFun (congrFun h (y 0)) (y 1)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, the kernel program ends with its result array at
    the layer with the one-pass variance, the reference with its result at the layer with the two-pass variance, of the same
    real aggregated features and real weights: one array. -/
theorem algebraic : Cert.algebraic_KernelIdeal_ReferenceIdeal := by
  intro m ρ m' ρ' hpre hagree
  refine ⟨fun c => Cert.KernelIdeal.Gen.W8 m ρ c (Proc.devRef .tc Cert.KernelIdeal.main_v31),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6, h7, h8, h9⟩ := hagree c
  obtain ⟨r0, r3, r4, r5, r6, r7, -, -, hsrc⟩ := Cert.PreDecode.decode _ _ _ _ _ _ _ _ _ _ (hpre c)
  rw [Cert.ReferenceIdeal.Read.val_main_v72_eq, h0, h1, h3, h4, h5, h6, h7, h8, h9]
  refine eq_of_toMat ?_
  rw [Cert.ReferenceIdeal.RefValue.ref_eq, Cert.KernelIdeal.KValue.out_eq m ρ c hsrc]
  refine (layer_varK_eq_varR _ _ _ _ _ _ _ (fun i l => Cert.H0.h0_real _ _ _ r0 r3 i l) (fun l j => r4 _) (fun j => r5 _)
    (fun j => r6 _) (fun l j => r7 _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
